-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S2048x512 : Shape := ⟨2, ![2048, 512]⟩
abbrev S4 : Shape := ⟨1, ![4]⟩
abbrev S_ : Shape := ⟨0, ![]⟩
abbrev S256x512 : Shape := ⟨2, ![256, 512]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S2048x512, .bf16⟩
  | .local _ .vmem, ⟨0, _⟩ => ⟨S1024x512, .f32⟩
  | .local _ .vmem, ⟨1, _⟩ => ⟨S2048x512, .bf16⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) (c0_i32_9 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v17 : BitVec 32 := Scalar.muli v8 c1024_i32
  let v18 : BitVec 32 := Scalar.addi v17 c0_i32_9
  let v22 : Index := Scalar.indexCast v18
  let c0_11 : Index := 0#32
  ![v22.toNat, 0]
def k0_off2 (d0 : Dev nD) (c0_i32_9 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v17 : BitVec 32 := Scalar.muli v8 c1024_i32
  let v18 : BitVec 32 := Scalar.addi v17 c0_i32_9
  let c0_i32_18 : BitVec 32 := 0#32
  ![v18.toNat, 0]
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32_15 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v26 : BitVec 32 := Scalar.muli v5 c2_i32_16
  let v27 : BitVec 32 := Scalar.addi v25 v26
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v28 : BitVec 32 := Scalar.muli v9 c1_i32_17
  let v29 : BitVec 32 := Scalar.addi v27 v28
  v29.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v42 : BitVec 32 := Scalar.muli v2 c4_i32_24
  let v43 : BitVec 32 := Scalar.addi c0_i32_25 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v44 : BitVec 32 := Scalar.muli v5 c2_i32_26
  let v45 : BitVec 32 := Scalar.addi v43 v44
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v46 : BitVec 32 := Scalar.muli v9 c1_i32_27
  let v47 : BitVec 32 := Scalar.addi v45 v46
  v47.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v60 : BitVec 32 := Scalar.muli v2 c4_i32_34
  let v61 : BitVec 32 := Scalar.addi c0_i32_35 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v62 : BitVec 32 := Scalar.muli v5 c2_i32_36
  let v63 : BitVec 32 := Scalar.addi v61 v62
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_37 : BitVec 32 := 1#32
  let v64 : BitVec 32 := Scalar.muli v9 c1_i32_37
  let v65 : BitVec 32 := Scalar.addi v63 v64
  v65.toNat
def k0_dev5 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v78 : BitVec 32 := Scalar.muli v2 c4_i32_43
  let v79 : BitVec 32 := Scalar.addi c0_i32_44 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v80 : BitVec 32 := Scalar.muli v5 c2_i32_45
  let v81 : BitVec 32 := Scalar.addi v79 v80
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_46 : BitVec 32 := 1#32
  let v82 : BitVec 32 := Scalar.muli v9 c1_i32_46
  let v83 : BitVec 32 := Scalar.addi v81 v82
  v83.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S256x512_0_0 : ∀ a, (![0, 0] : Fin 2 → Nat) a + S256x512.size a ≤ S1024x512.size a
  h_S256x512 : 0 < S256x512.numel
  shapeCasts_S256x512_S256x512 : S256x512.ShapeCasts S256x512
  bitsLt_bf16_f32 : FTy.bits .bf16 < FTy.bits .f32
  inb_S4_S1_0 : ∀ a, (![0] : Fin 1 → Nat) a + S1.size a ≤ S4.size a
  squeezes_S1_S_ : S1.Squeezes S_
  inb_S1024x512_S256x512_256_0 : ∀ a, (![256, 0] : Fin 2 → Nat) a + S256x512.size a ≤ S1024x512.size a
  inb_S4_S1_1 : ∀ a, (![1] : Fin 1 → Nat) a + S1.size a ≤ S4.size a
  inb_S1024x512_S256x512_512_0 : ∀ a, (![512, 0] : Fin 2 → Nat) a + S256x512.size a ≤ S1024x512.size a
  inb_S4_S1_2 : ∀ a, (![2] : Fin 1 → Nat) a + S1.size a ≤ S4.size a
  inb_S1024x512_S256x512_768_0 : ∀ a, (![768, 0] : Fin 2 → Nat) a + S256x512.size a ≤ S1024x512.size a
  inb_S4_S1_3 : ∀ a, (![3] : Fin 1 → Nat) a + S1.size a ≤ S4.size a
  hcc0_scratch0 : 2 + S4.numel ≤ 10
  hcc0_scratch1 : 6 + S4.numel ≤ 10
  k0_dev1_lt : ∀ d0 : Dev nD, (k0_dev1 d0) < nD
  k0_off1_inb : ∀ d0 : Dev nD, ∀ (r : Fin 4), ∀ a, (k0_off1 d0 (BitVec.ofNat 32 (256 * r.val))) a + S256x512.size a ≤ S2048x512.size a
  k0_off1_packedbf16 : ∀ d0 : Dev nD, ∀ (r : Fin 4), (Rect.unit (s := S2048x512) (k0_off1 d0 (BitVec.ofNat 32 (256 * r.val))) S256x512.size (k0_off1_inb d0 r)).PackedRows (EltTy.packing .bf16)
  k0_off2_inb : ∀ d0 : Dev nD, ∀ (r : Fin 4), ∀ a, (k0_off2 d0 (BitVec.ofNat 32 (256 * r.val))) a + S256x512.size a ≤ S2048x512.size a
  k0_off2_wordsbf16 : ∀ d0 : Dev nD, ∀ (r : Fin 4), (Rect.unit (s := S2048x512) (k0_off2 d0 (BitVec.ofNat 32 (256 * r.val))) S256x512.size (k0_off2_inb d0 r)).WholeWords (EltTy.packing .bf16)
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  hstage0_0 : ∀ j, (stage0_0 j).IsWhole
  hstage0_1 : ∀ j, (stage0_1 j).IsWhole

variable [Facts₀]

abbrev cc0_scratch0 : DmaSems sig S4 := SemArray.consecutive 2 S4 hcc0_scratch0
abbrev cc0_scratch1 : DmaSems sig S4 := SemArray.consecutive 6 S4 hcc0_scratch1

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.AgCells.lean ====
/-
  Eight devices in four pairs: a device and its partner differ in the last mesh coordinate only. Each device holds
  one half (1024 rows) of a 2048 x 512 array, converts it to the narrower float format into its own half of a
  2048-row result buffer, four chunks of 256 rows at a time, and copies each chunk into the same rows of its
  partner's result buffer. After the exchange both result buffers of a pair hold the same 2048 rows.

  This module names the pieces: the partner map (an involution without fixed point), the semaphore cells (one
  barrier cell, four send and four receive cells a device), the eight chunks that tile the result buffer, the
  gathered contents `outAt` every chunk ends at, and the facts about chunks as sets of indices (which rows a chunk
  has, that chunks of different position are disjoint, that the eight of them cover the buffer).
-/
import proofs.«900669_g7700000000000670_dist_ag_v7x_xyz2x2x2_z_m1024_n512_bf16_1_alg».proof.Proof.Gen.KernelIdeal
import proofs.«900669_g7700000000000670_dist_ag_v7x_xyz2x2x2_z_m1024_n512_bf16_1_alg».proof.Proof.Gen.KernelIdeal.Skeleton
import proofs.«900669_g7700000000000670_dist_ag_v7x_xyz2x2x2_z_m1024_n512_bf16_1_alg».proof.Proof.Gen.KernelIdeal.Launch
import Idealize.ShloMosaic.Lib.Pipeline.Launch
import Idealize.ShloMosaic.Lib.Pipeline.Kit
import Idealize.ShloMosaic.Lib.ValueIdx
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside one for the exchange's cells (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner -/

/-- The device with the same first two mesh coordinates and the other last one: `c` with its lowest bit flipped. -/
def pr (c : Dev nD) : Dev nD :=
  ⟨(4 * (c.val / 4) + 2 * ((c.val / 2) % 2) + 1) - (c.val % 2), by have h : c.val < 8 := c.isLt; show _ < 8; omega⟩

theorem pr_pr (c : Dev nD) : pr (pr c) = c := by revert c; decide
theorem pr_ne (c : Dev nD) : pr c ≠ c := by revert c; decide
/-- The partner holds the other half. -/
theorem pr_half (c : Dev nD) : (pr c).val % 2 = 1 - c.val % 2 := by revert c; decide
theorem half_lt (c : Dev nD) : c.val % 2 < 2 := Nat.mod_lt _ (by decide)

/-- Every device-id chain of the kernel (the signal's and the four copies') names the partner. -/
theorem dev1_eq (c : Dev nD) : (⟨k0_dev1 c, k0_dev1_lt c⟩ : Dev nD) = pr c := Fin.ext (k0_dev1_eq c)
theorem dev2_eq (c : Dev nD) : (⟨k0_dev2 c, k0_dev2_lt c⟩ : Dev nD) = pr c := Fin.ext (k0_dev2_eq c)
theorem dev3_eq (c : Dev nD) : (⟨k0_dev3 c, k0_dev3_lt c⟩ : Dev nD) = pr c := Fin.ext (k0_dev3_eq c)
theorem dev4_eq (c : Dev nD) : (⟨k0_dev4 c, k0_dev4_lt c⟩ : Dev nD) = pr c := Fin.ext (k0_dev4_eq c)
theorem dev5_eq (c : Dev nD) : (⟨k0_dev5 c, k0_dev5_lt c⟩ : Dev nD) = pr c := Fin.ext (k0_dev5_eq c)

def swapE : Dev nD ≃ Dev nD := ⟨pr, pr, pr_pr, pr_pr⟩

/-! ## The buffers, the chunks and the cells -/

abbrev xM : Memref sig .tc .vmem S1024x512 .f32 := Memref.whole cc0_stg0_0
abbrev oM : Memref sig .tc .vmem S2048x512 .bf16 := Memref.whole cc0_stg1_0

/-- Chunk `k`'s row offset inside a half, as the word the kernel adds. -/
abbrev kw (k : Fin 4) : BitVec 32 := BitVec.ofNat 32 (256 * k.val)

/-- Rows `1024 (d mod 2) + 256 k` up to 256 further of the result buffer: chunk `k` of the half device `d` fills. -/
abbrev chunkR (d : Dev nD) (k : Fin 4) : Rect S2048x512 :=
  Rect.unit (s := S2048x512) (k0_off2 d (kw k)) S256x512.size (k0_off2_inb d k)
abbrev chunkM (d : Dev nD) (k : Fin 4) : Memref sig .tc .vmem S256x512 .bf16 := oM.slice (chunkR d k) (fun _ => rfl)

/-- The runtime's barrier semaphore of collective id 0; the four send and the four receive DMA semaphores. -/
abbrev barS : Sem sig := (SemArray.scalar (sig.barrier 0 rfl) : Sems sig S_).sem
abbrev sendS : Fin 4 → DmaSem sig
  | 0 => ((cc0_scratch0.slice (Rect.unit (s := S4) ![0] S1.size inb_S4_S1_0)).squeeze S_ squeezes_S1_S_).sem
  | 1 => ((cc0_scratch0.slice (Rect.unit (s := S4) ![1] S1.size inb_S4_S1_1)).squeeze S_ squeezes_S1_S_).sem
  | 2 => ((cc0_scratch0.slice (Rect.unit (s := S4) ![2] S1.size inb_S4_S1_2)).squeeze S_ squeezes_S1_S_).sem
  | 3 => ((cc0_scratch0.slice (Rect.unit (s := S4) ![3] S1.size inb_S4_S1_3)).squeeze S_ squeezes_S1_S_).sem
abbrev recvS : Fin 4 → DmaSem sig
  | 0 => ((cc0_scratch1.slice (Rect.unit (s := S4) ![0] S1.size inb_S4_S1_0)).squeeze S_ squeezes_S1_S_).sem
  | 1 => ((cc0_scratch1.slice (Rect.unit (s := S4) ![1] S1.size inb_S4_S1_1)).squeeze S_ squeezes_S1_S_).sem
  | 2 => ((cc0_scratch1.slice (Rect.unit (s := S4) ![2] S1.size inb_S4_S1_2)).squeeze S_ squeezes_S1_S_).sem
  | 3 => ((cc0_scratch1.slice (Rect.unit (s := S4) ![3] S1.size inb_S4_S1_3)).squeeze S_ squeezes_S1_S_).sem

theorem sendS_val (k : Fin 4) : (sendS k).val = 2 + k.val := by fin_cases k <;> rfl
theorem recvS_val (k : Fin 4) : (recvS k).val = 6 + k.val := by fin_cases k <;> rfl

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- What one chunk's copy credits each of its two cells. -/
abbrev N : ℕ := (chunkM (0 : Dev nD) (0 : Fin 4)).view.dmaCredit
theorem N_pos : 0 < N := View.dmaCredit_pos _ (by decide)

end Cert.KernelIdeal.AG

end
-- ==== Proof.AgChunks.lean ====
/-
  The result buffer as eight chunks of 256 rows, and what they hold.

  Chunk `k` of the half device `d` fills is rows `1024 (d mod 2) + 256 k` to 256 further. Two chunks with different
  first rows share no index, and the four chunks of a device with the four of its partner tile the 2048 rows. So
  owning the buffer whole is owning the eight chunks, and back.

  `outAt c` is what both buffers of `c`'s pair end at: row `r` of half `h` is row `r` of the block held by the
  device of the pair whose last coordinate is `h`, converted to the narrower format. It is the same function for a
  device and its partner. A chunk a device has just stored agrees with it on that chunk, and a copy of a chunk
  between the two buffers lands what the source held there.
-/
import proofs.«900669_g7700000000000670_dist_ag_v7x_xyz2x2x2_z_m1024_n512_bf16_1_alg».proof.Proof.AgCells

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Chunks as sets of indices -/

/-- Which rows chunk `k` of device `d`'s half has (every column). -/
theorem mem_chunk (d : Dev nD) (k : Fin 4) (i : S2048x512.Idx) :
    i ∈ (chunkR d k).set ↔
      1024 * (d.val % 2) + 256 * k.val ≤ (i 0).val ∧ (i 0).val < 1024 * (d.val % 2) + 256 * k.val + 256 := by
  rw [Rect.mem_set_unit, k0_off2_eq d k]
  constructor
  · intro h
    have h0 := h 0
    exact ⟨h0.1, h0.2⟩
  · intro h a
    match a with
    | ⟨0, _⟩ => exact ⟨h.1, h.2⟩
    | ⟨1, _⟩ => exact ⟨Nat.zero_le _, by have h1 : (i 1).val < 512 := (i 1).isLt; show (i 1).val < 0 + 512; omega⟩

theorem cset_eq (d : Dev nD) (k : Fin 4) : (chunkM d k).view.set = (chunkR d k).set :=
  View.set_slice_whole cc0_stg1_0 (chunkR d k)

/-- Chunks with different first rows share no index. -/
theorem chunk_disjoint (d d' : Dev nD) (k k' : Fin 4)
    (h : 1024 * (d.val % 2) + 256 * k.val ≠ 1024 * (d'.val % 2) + 256 * k'.val) :
    Disjoint (chunkR d k).set (chunkR d' k').set := by
  rw [Finset.disjoint_left]
  intro i hi hi'
  rw [mem_chunk] at hi hi'
  have h1 := half_lt d; have h2 := half_lt d'; have h3 := k.isLt; have h4 := k'.isLt
  omega

/-- The device itself (`true`) or its partner (`false`). -/
abbrev side (c : Dev nD) (b : Bool) : Dev nD := cond b c (pr c)

def chunkSet (c : Dev nD) (bk : Bool × Fin 4) : Finset S2048x512.Idx := (chunkR (side c bk.1) bk.2).set

theorem first_row_inj (c : Dev nD) (bk bk' : Bool × Fin 4) (h : bk ≠ bk') :
    1024 * ((side c bk.1).val % 2) + 256 * bk.2.val ≠ 1024 * ((side c bk'.1).val % 2) + 256 * bk'.2.val := by
  obtain ⟨b, k⟩ := bk; obtain ⟨b', k'⟩ := bk'
  have hp := pr_half c; have h1 := half_lt c; have h3 := k.isLt; have h4 := k'.isLt
  intro he
  apply h
  cases b <;> cases b' <;> simp only [side, cond_true, cond_false] at he <;>
    first
    | (have : k = k' := Fin.ext (by omega); subst this; rfl)
    | (exfalso; omega)

/-- The eight chunks tile the buffer. -/
theorem univ_eq_chunks (c : Dev nD) : (Finset.univ : Finset S2048x512.Idx) = Finset.univ.biUnion (chunkSet c) := by
  ext i
  simp only [Finset.mem_univ, true_iff, Finset.mem_biUnion, true_and]
  have hi : (i 0).val < 2048 := (i 0).isLt
  have hp := pr_half c; have h1 := half_lt c
  by_cases hb : c.val % 2 = (i 0).val / 1024
  · refine ⟨(true, ⟨((i 0).val % 1024) / 256, by omega⟩), ?_⟩
    show i ∈ (chunkR c _).set
    rw [mem_chunk]; dsimp only; omega
  · refine ⟨(false, ⟨((i 0).val % 1024) / 256, by omega⟩), ?_⟩
    show i ∈ (chunkR (pr c) _).set
    rw [mem_chunk, hp]; dsimp only; omega

/-! ## Contents -/

/-- Device `c`'s block of the array, as its input buffer holds it throughout. -/
def xstg (c : Dev nD) : (cc0_stg0_0 : Ref sig .tc).ty.Contents (Elt F) :=
  (win0_0.blk (0 : Fin 1)).view.read (Elt F) (m ((c : Thread nD τ).loc main_arg0))

/-- The device of `c`'s pair whose block is half `h` of the gathered array. -/
def halfDev (c : Dev nD) (h : ℕ) : Dev nD := if c.val % 2 = h then c else pr c

theorem halfDev_pr' : ∀ (c : Dev nD) (h : Fin 2), halfDev (pr c) h.val = halfDev c h.val := by decide
theorem halfDev_pr (c : Dev nD) (h : ℕ) (hh : h < 2) : halfDev (pr c) h = halfDev c h := halfDev_pr' c ⟨h, hh⟩
theorem halfDev_self (c : Dev nD) : halfDev c (c.val % 2) = c := if_pos rfl

/-- Row `r mod 1024`, same column: where an index of the gathered array sits inside its half. -/
abbrev rowIn (i : S2048x512.Idx) : S1024x512.Idx :=
  ValueIdx.ix2 (⟨(i 0).val % 1024, Nat.mod_lt _ (by decide)⟩ : Fin 1024) (⟨(i 1).val, (i 1).isLt⟩ : Fin 512)

/-- The gathered array, converted: what every result buffer of `c`'s pair ends at. -/
def outAt (c : Dev nD) : (cc0_stg1_0 : Ref sig .tc).ty.Contents (Elt F) := fun i =>
  (truncf .bf16 (xstg m (halfDev c ((i 0).val / 1024)) : FVec F S1024x512 .f32) bitsLt_bf16_f32 : FVec F S1024x512 .bf16) (rowIn i)

/-- A device and its partner gather the same array. -/
theorem outAt_pr (c : Dev nD) : outAt m (pr c) = outAt m c := by
  funext i
  unfold outAt
  rw [halfDev_pr c _ (by have h : (i 0).val < 2048 := (i 0).isLt; omega)]

/-! ## Owning chunks -/

/-- Chunk `k` of device `d`'s half, in device `t`'s result buffer, holding `f` there. -/
def cPts (t d : Dev nD) (k : Fin 4) (f : Buf (Elt F) ((t : Thread nD τ).loc cc0_stg1_0)) : sProp 𝕄 :=
  (chunkM d k).view.loc (t : Thread nD τ) ↦[(chunkM d k).view.set]{fullShare} f

omit [FloatOps F] in
instance cPts_storable (t d : Dev nD) (k : Fin 4) (f) : BI.Storable (upEmb : UEmb _ 𝕄) (cPts (F := F) t d k f) := by
  unfold cPts; infer_instance

omit [FloatOps F] in
/-- Only the chunk's own entries matter. -/
theorem cPts_congr (t d : Dev nD) (k : Fin 4) (f g : Buf (Elt F) ((t : Thread nD τ).loc cc0_stg1_0))
    (h : ∀ i ∈ (chunkR d k).set, f i = g i) : cPts t d k f = cPts t d k g := by
  unfold cPts
  exact pointsTo_congr (fun i hi => h i ((cset_eq d k) ▸ hi))

/-- The four chunks of device `d`'s half, in device `t`'s buffer. -/
def four (t d : Dev nD) (f : Buf (Elt F) ((t : Thread nD τ).loc cc0_stg1_0)) : sProp 𝕄 :=
  iprop(cPts t d 0 f ∗ cPts t d 1 f ∗ cPts t d 2 f ∗ cPts t d 3 f)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_bool (Φ : Bool → sProp 𝕄) : bigSep Finset.univ Φ = iprop(Φ true ∗ Φ false) :=
  bigSep_univ_eq_bigSepL [true, false] (by decide) (by decide) Φ

omit [FloatOps F] in
/-- Owning the result buffer whole is owning its own four chunks and the partner's four. -/
theorem whole_eq_chunks (c : Dev nD) (f : Buf (Elt F) ((c : Thread nD τ).loc cc0_stg1_0)) :
    ((((c : Thread nD τ).loc cc0_stg1_0) ↦{fullShare} f) : sProp 𝕄) = iprop(four c c f ∗ four c (pr c) f) := by
  have e : (Finset.univ : Finset (Idx ((c : Thread nD τ).loc cc0_stg1_0))) = Finset.univ.biUnion (chunkSet c) := univ_eq_chunks c
  have h0 : ((((c : Thread nD τ).loc cc0_stg1_0) ↦{fullShare} f) : sProp 𝕄)
      = bigSep Finset.univ fun bk : Bool × Fin 4 => cPts c (side c bk.1) bk.2 f := by
    refine (congrArg (fun S => ((((c : Thread nD τ).loc cc0_stg1_0) ↦[S]{fullShare} f) : sProp 𝕄)) e).trans ?_
    rw [pointsTo_biUnion _ _ (fun t _ t' _ htt' => chunk_disjoint _ _ _ _ (first_row_inj c t t' htt'))]
    exact bigSep_congr fun bk _ => by unfold cPts chunkSet; rw [cset_eq]
  rw [h0, bigSep_univ_prod, bigSep_bool, bigSep_fin4, bigSep_fin4]
  rfl

/-! ## What a store and a landing leave in a chunk -/

theorem xR_inb (k : Fin 4) : ∀ a, (![256 * k.val, 0] : Fin 2 → Nat) a + S256x512.size a ≤ S1024x512.size a := by
  intro a; fin_cases k <;> fin_cases a <;> decide

/-- Rows `256 k` to 256 further of the input block: the rectangle the kernel loads for chunk `k`. -/
abbrev xR (k : Fin 4) : Rect S1024x512 := Rect.unit (s := S1024x512) ![256 * k.val, 0] S256x512.size (xR_inb k)

/-- The rectangle of the result buffer the kernel stores chunk `k` through (the chunk's own rows). -/
abbrev storeR (c : Dev nD) (k : Fin 4) : Rect S2048x512 :=
  Rect.unit (s := S2048x512) (k0_off1 c (kw k)) S256x512.size (k0_off1_inb c k)

theorem mem_storeR (d : Dev nD) (k : Fin 4) (i : S2048x512.Idx) :
    i ∈ (storeR d k).set ↔
      1024 * (d.val % 2) + 256 * k.val ≤ (i 0).val ∧ (i 0).val < 1024 * (d.val % 2) + 256 * k.val + 256 := by
  rw [Rect.mem_set_unit, k0_off1_eq d k]
  constructor
  · intro h
    have h0 := h 0
    exact ⟨h0.1, h0.2⟩
  · intro h a
    match a with
    | ⟨0, _⟩ => exact ⟨h.1, h.2⟩
    | ⟨1, _⟩ => exact ⟨Nat.zero_le _, by have h1 : (i 1).val < 512 := (i 1).isLt; show (i 1).val < 0 + 512; omega⟩

/-- The store's rectangle is the chunk. -/
theorem storeR_set (d : Dev nD) (k : Fin 4) : (storeR d k).set = (chunkR d k).set := by
  ext i; rw [mem_storeR, mem_chunk]

/-- A copy of a view onto itself (between two buffers of one type) lands the source's entries on the view. -/
theorem write_read_on_set {sg : RefSig} {κ : Kind} {sp : Space} {s : Shape} {e : EltTy} {Val : EltTy → Type}
    (v : View sg κ sp s e) (fd fs : v.ty.Contents Val) :
    ∀ i ∈ v.set, v.write Val fd (v.read Val fs) Finset.univ i = fs i := by
  intro i hi
  obtain ⟨y, -, rfl⟩ := Finset.mem_map.mp hi
  show v.write Val fd (v.read Val fs) Finset.univ (v.emb y) = fs (v.emb y)
  rw [View.write_emb_of_mem _ _ (Finset.mem_univ y), View.read_apply, cast_cast, cast_eq]

/-- What chunk `k` of `c`'s half holds in the partner's buffer once `c`'s copy of it has landed. -/
theorem landed_agrees (c : Dev nD) (k : Fin 4) (fd : Buf (Elt F) (((pr c : Dev nD) : Thread nD τ).loc cc0_stg1_0)) :
    ∀ i ∈ (chunkR c k).set,
      (chunkM c k).view.write (Elt F) fd ((chunkM c k).view.read (Elt F) (outAt m c)) Finset.univ i = outAt m (pr c) i := by
  intro i hi
  rw [outAt_pr]
  exact write_read_on_set (chunkM c k).view fd (outAt m c) i ((cset_eq c k) ▸ hi)

end Cert.KernelIdeal.AG

end
-- ==== Proof.AgSched.lean ====
/-
  The exchange as a schedule of rounds, one round a cell, one duty a round.

  A device's barrier cell is paid one unit by its partner; with it the partner hands over the four chunks of the
  device's half IN THE PARTNER'S result buffer, at whatever they hold: the right to write them. Send cell `k` is paid
  by the device's own copy of chunk `k` once the source has been read, and gives the chunk back holding the gathered
  array's entries. Receive cell `k` is paid by the partner's copy of its chunk `k` once it has been written, and
  gives that chunk of the device's own buffer holding the gathered array's entries.

  At launch a device owes its partner the barrier unit and the four receive credits. It waits on its barrier while it
  still owes the receive credits, so barrier cells sit below receive cells; the pipeline's own staging cells sit below
  both. By the time it waits on its send and receive cells it owes nothing.
-/
import proofs.«900669_g7700000000000670_dist_ag_v7x_xyz2x2x2_z_m1024_n512_bf16_1_alg».proof.Proof.AgChunks

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- What the partner's signal hands `c`: the four chunks of `c`'s half in the partner's buffer, at any contents. -/
def barPay (c : Dev nD) : sProp 𝕄 :=
  iprop((∃ f, cPts (pr c) c 0 f) ∗ (∃ f, cPts (pr c) c 1 f) ∗ (∃ f, cPts (pr c) c 2 f) ∗ (∃ f, cPts (pr c) c 3 f))
/-- Its own chunk `k` back, holding the gathered array there. -/
def sendPay (c : Dev nD) (k : Fin 4) : sProp 𝕄 := cPts c c k (outAt m c)
/-- The partner's chunk `k` in its own buffer, holding the gathered array there. -/
def recvPay (c : Dev nD) (k : Fin 4) : sProp 𝕄 := cPts c (pr c) k (outAt m c)

/-- Which chunk a semaphore of the two arrays serves. -/
def chunkOf (q : DmaSem sig) : Fin 4 := ⟨(q.val + 2) % 4, Nat.mod_lt _ (by decide)⟩
theorem chunkOf_send (k : Fin 4) : chunkOf (sendS k) = k := by fin_cases k <;> rfl
theorem chunkOf_recv (k : Fin 4) : chunkOf (recvS k) = k := by fin_cases k <;> rfl

/-- The exchange's cells: the barrier semaphore and the eight of the two arrays (not the two staging semaphores). -/
def isCell : SemLoc sig → Bool
  | .reg s => decide (s = barS)
  | .dma q => decide (2 ≤ q.val)

def payOf (c : Dev nD) : SemLoc sig → sProp 𝕄
  | .reg _ => barPay c
  | .dma q => if q.val < 6 then sendPay m c (chunkOf q) else recvPay m c (chunkOf q)

/-! ## The schedule -/

def ringRd : Rounds.Schedule (GSem nD τ sig) Unit 𝕄 where
  duties g r := if r = 0 ∧ g.1.2 = .tc ∧ isCell g.2 = true then {()} else ∅
  unitless _ := False
  amount g _ _ := if g.2 = .reg barS then 1 else N
  payload g _ _ := payOf m g.1.1 g.2
  amount_pos g _ _ _ := by
    by_cases h : g.2 = .reg barS
    · rw [if_pos h]; exact Nat.one_pos
    · rw [if_neg h]; exact N_pos

instance ringRd_payload_storable (g : GSem nD τ sig) (r : ℕ) (d : Unit) :
    BI.Storable (upEmb : UEmb _ 𝕄) ((ringRd (F := F) m).payload g r d) := by
  show BI.Storable upEmb (payOf m g.1.1 g.2)
  unfold payOf
  split
  · unfold barPay; infer_instance
  · split
    · unfold sendPay; infer_instance
    · unfold recvPay; infer_instance

section Sched
variable (c : Dev nD) (k : Fin 4)

theorem send_ne_bar : (SemLoc.dma (sendS k) : SemLoc sig) ≠ .reg barS := fun h => by cases h
theorem recv_ne_bar : (SemLoc.dma (recvS k) : SemLoc sig) ≠ .reg barS := fun h => by cases h
theorem isCell_bar : isCell (.reg barS : SemLoc sig) = true := by simp [isCell]
theorem isCell_send : isCell (.dma (sendS k) : SemLoc sig) = true := by
  show decide (2 ≤ (sendS k).val) = true; rw [sendS_val]; exact decide_eq_true (by omega)
theorem isCell_recv : isCell (.dma (recvS k) : SemLoc sig) = true := by
  show decide (2 ≤ (recvS k).val) = true; rw [recvS_val]; exact decide_eq_true (by omega)

theorem duties_bar : (ringRd (F := F) m).duties (barCell c) 0 = {()} := by
  dsimp only [ringRd]; exact if_pos ⟨rfl, rfl, isCell_bar⟩
theorem duties_send : (ringRd (F := F) m).duties (sendCell c k) 0 = {()} := by
  dsimp only [ringRd]; exact if_pos ⟨rfl, rfl, isCell_send k⟩
theorem duties_recv : (ringRd (F := F) m).duties (recvCell c k) 0 = {()} := by
  dsimp only [ringRd]; exact if_pos ⟨rfl, rfl, isCell_recv k⟩
theorem duties_later (g : GSem nD τ sig) : ∀ r, 1 ≤ r → (ringRd (F := F) m).duties g r = ∅ :=
  fun r hr => by dsimp only [ringRd]; rw [if_neg fun h => by omega]

theorem amount_bar (d : Unit) : (ringRd (F := F) m).amount (barCell c) 0 d = 1 := by dsimp only [ringRd]; exact if_pos rfl
theorem amount_send (d : Unit) : (ringRd (F := F) m).amount (sendCell c k) 0 d = N := by dsimp only [ringRd]; exact if_neg (send_ne_bar k)
theorem amount_recv (d : Unit) : (ringRd (F := F) m).amount (recvCell c k) 0 d = N := by dsimp only [ringRd]; exact if_neg (recv_ne_bar k)

theorem expect_bar : (ringRd (F := F) m).expect (barCell c) 0 = 1 := by
  unfold Schedule.expect Schedule.amountOf; rw [duties_bar, Finset.sum_singleton, amount_bar]
theorem expect_send : (ringRd (F := F) m).expect (sendCell c k) 0 = N := by
  unfold Schedule.expect Schedule.amountOf; rw [duties_send, Finset.sum_singleton, amount_send]
theorem expect_recv : (ringRd (F := F) m).expect (recvCell c k) 0 = N := by
  unfold Schedule.expect Schedule.amountOf; rw [duties_recv, Finset.sum_singleton, amount_recv]

theorem payload_bar (d : Unit) : (ringRd (F := F) m).payload (barCell c) 0 d = barPay c := rfl
theorem payload_send (d : Unit) : (ringRd (F := F) m).payload (sendCell c k) 0 d = sendPay m c k := by
  show payOf m c (.dma (sendS k)) = _
  unfold payOf; dsimp only
  rw [if_pos (by rw [sendS_val]; omega), chunkOf_send]
theorem payload_recv (d : Unit) : (ringRd (F := F) m).payload (recvCell c k) 0 d = recvPay m c k := by
  show payOf m c (.dma (recvS k)) = _
  unfold payOf; dsimp only
  rw [if_neg (by rw [recvS_val]; omega), chunkOf_recv]

/-- The whole of a cell's one round, nothing of it taken yet, is its one payload. -/
theorem rest_bar : bigSep ((ringRd (F := F) m).duties (barCell c) 0 \ ∅) (fun d => (ringRd (F := F) m).payload (barCell c) 0 d) = barPay c := by
  rw [Finset.sdiff_empty, duties_bar, bigSep_singleton, payload_bar]
theorem rest_send : bigSep ((ringRd (F := F) m).duties (sendCell c k) 0 \ ∅) (fun d => (ringRd (F := F) m).payload (sendCell c k) 0 d) = sendPay m c k := by
  rw [Finset.sdiff_empty, duties_send, bigSep_singleton, payload_send]
theorem rest_recv : bigSep ((ringRd (F := F) m).duties (recvCell c k) 0 \ ∅) (fun d => (ringRd (F := F) m).payload (recvCell c k) 0 d) = recvPay m c k := by
  rw [Finset.sdiff_empty, duties_recv, bigSep_singleton, payload_recv]

end Sched

/-! ## What each device owes at launch; the levels -/

/-- The credit of its partner's receive cell `k`. -/
abbrev Rk (c : Dev nD) (k : Fin 4) : CellTallies nD τ sig Unit := tallyAt (recvCell (pr c) k) () N

/-- What a device still owes before its copy of chunk 0, 1, 2, 3 (each copy pays the last summand) and after them. -/
abbrev Os0 (c : Dev nD) : CellTallies nD τ sig Unit := Rk c 3 + Rk c 2 + Rk c 1 + Rk c 0
abbrev Os1 (c : Dev nD) : CellTallies nD τ sig Unit := Rk c 3 + Rk c 2 + Rk c 1
abbrev Os2 (c : Dev nD) : CellTallies nD τ sig Unit := Rk c 3 + Rk c 2
abbrev Os3 (c : Dev nD) : CellTallies nD τ sig Unit := Rk c 3
/-- At launch: the four receive credits and, paid first, the partner's barrier unit. -/
def O₀ (c : Dev nD) : CellTallies nD τ sig Unit := Os0 c + tallyAt (barCell (pr c)) () 1

def L (g : GSem nD τ sig) : Finset Unit := if g.1.2 = .tc then {()} else ∅
def isRecv : SemLoc sig → Bool
  | .reg _ => false
  | .dma q => decide (6 ≤ q.val)
/-- Barrier cells at 1, receive cells at 2, everything else (staging, send) at 0. -/
def lv (g : GSem nD τ sig) (_ : Unit) : ℕ := if g.2 = .reg barS then 1 else if isRecv g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 4) : lv (recvCell c k) () = 2 := by
  unfold lv; rw [if_neg (recv_ne_bar k), if_pos]
  show decide (6 ≤ (recvS k).val) = true; rw [recvS_val]; exact decide_eq_true (by omega)
theorem lv_low (c : Dev nD) (q : DmaSem sig) (hq : q.val < 6) : lv ((c : Thread nD τ), .dma q) () = 0 := by
  unfold lv; rw [if_neg (fun h => by cases h), if_neg]
  show ¬ decide (6 ≤ q.val) = true; exact fun h => absurd (of_decide_eq_true h) (by omega)

theorem Os0_pos {c : Dev nD} {g : GSem nD τ sig} {u : Unit} (h : 0 < Os0 c g u) : ∃ k, g = recvCell (pr c) k := by
  simp only [Os0, Rk, Pi.add_apply, Finsupp.add_apply, tallyAt_apply] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    g = barCell (pr c) ∨ ∃ k, g = recvCell (pr c) k := by
  unfold O₀ at h
  rw [Pi.add_apply, Finsupp.add_apply] at h
  by_cases hb : g = barCell (pr c)
  · exact .inl hb
  · rw [tallyAt_apply, if_neg (fun h' => hb h'.1), Nat.add_zero] at h
    exact .inr (Os0_pos h)

omit [FloatOps F] in
/-- The staging cells (and any cell at level 0) may be waited on whatever of its launch debt a device still owes. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | ⟨k, rfl⟩ <;> exact Finset.mem_singleton_self _)
      (fun p hp => by rw [Finset.mem_singleton.mp hp]; exact le_of_eq (lv_low c q hq))
      (fun g u hg => by
        rcases O₀_pos hg with rfl | ⟨k, rfl⟩
        · rw [lv_bar]; decide
        · rw [lv_recv]; decide)
  · rw [MayWait_zero]; iintro -; iempintro

omit [FloatOps F] in
/-- At its barrier wait a device owes its partner's receive credits only: receive cells, above its barrier cell. -/
theorem mayWait_bar (c : Dev nD) :
    (levAts L lv : sProp 𝕄) ⊢ MayWait (c : Thread nD τ) (.reg barS) () (Os0 c) :=
  MayOwe.of_cut (L := L) (lev := lv) 1 (fun p hp => by rw [Finset.mem_singleton.mp hp, L_tc]; exact Finset.mem_singleton_self _)
    (fun g u hg => by obtain ⟨k, rfl⟩ := Os0_pos hg; exact Finset.mem_singleton_self _)
    (fun p hp => by rw [Finset.mem_singleton.mp hp]; exact le_of_eq (lv_bar c))
    (fun g u hg => by obtain ⟨k, rfl⟩ := Os0_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The names the launch allocated the cells' invariants at: a device's barrier cell, its send cells, its receive cells. -/
abbrev sIdx (k : Fin 4) : Fin 9 := ⟨1 + k.val, by omega⟩
abbrev rIdx (k : Fin 4) : Fin 9 := ⟨5 + k.val, by omega⟩

/-- The cells' invariants device `c`'s body opens: its own nine, its partner's barrier cell (its signal) and its
    partner's four receive cells (its copies). -/
def invs (K : Dev nD × Fin 9 → ℕ) (c : Dev nD) : sProp 𝕄 :=
  iprop(cellInv ER (ringRd m) (K (c, 0)) (barCell c)
    ∗ (bigSep Finset.univ fun k : Fin 4 => cellInv ER (ringRd m) (K (c, sIdx k)) (sendCell c k))
    ∗ (bigSep Finset.univ fun k : Fin 4 => cellInv ER (ringRd m) (K (c, rIdx k)) (recvCell c k))
    ∗ cellInv ER (ringRd m) (K (pr c, 0)) (barCell (pr c))
    ∗ (bigSep Finset.univ fun k : Fin 4 => cellInv ER (ringRd m) (K (pr c, rIdx k)) (recvCell (pr c) k)))

instance invs_persistent (K : Dev nD × Fin 9 → ℕ) (c : Dev nD) : BI.Persistent (invs m K c) := by unfold invs; infer_instance

/-- The exchange's ghost state device `c` starts from: the invariants; its positions at round 0 of its nine cells; round
    0 reached of the cells it pays and of its own; the tokens of the nine duties it pays — its partner's barrier duty,
    its partner's four receive duties, its own four send duties. -/
def ghost (K : Dev nD × Fin 9 → ℕ) (c : Dev nD) : sProp 𝕄 :=
  iprop(invs m K c
    ∗ atPos ER (barCell c) 0 ∅ 0
    ∗ (bigSep Finset.univ fun k : Fin 4 => atPos ER (sendCell c k) 0 ∅ 0)
    ∗ (bigSep Finset.univ fun k : Fin 4 => atPos ER (recvCell c k) 0 ∅ 0)
    ∗ reached ER (barCell (pr c)) 0
    ∗ (bigSep Finset.univ fun k : Fin 4 => reached ER (recvCell (pr c) k) 0)
    ∗ (bigSep Finset.univ fun k : Fin 4 => reached ER (sendCell c k) 0)
    ∗ dutyTok ER (barCell (pr c)) 0 ()
    ∗ (bigSep Finset.univ fun k : Fin 4 => dutyTok ER (recvCell (pr c) k) 0 ())
    ∗ (bigSep Finset.univ fun k : Fin 4 => dutyTok ER (sendCell c k) 0 ()))

/-- What device `c`'s body starts from: that at some names, the credit tokens of its barrier's unit and of its four
    receive cells, and the level facts. -/
def start (c : Dev nD) : sProp 𝕄 :=
  iprop((∃ K, ghost m K c) ∗ cred (tallyAt (barCell c) () 1)
    ∗ (bigSep Finset.univ fun k : Fin 4 => cred (tallyAt (recvCell c k) () N)) ∗ levAts L lv)

def Φ₀ (c : Dev nD) : sProp 𝕄 := start m c
/-- After the point: the eight own cells at zero, closed (the barrier cell is the runtime's: nothing to hand back). -/
def Φ₁ (c : Dev nD) : sProp 𝕄 :=
  iprop((bigSep Finset.univ fun k : Fin 4 => semVal (sendCell c k) 0) ∗ (bigSep Finset.univ fun k : Fin 4 => semVal (recvCell c k) 0))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 9 → ℕ) (c : Dev nD) : sProp 𝕄 :=
  iprop((ghost m K c ∗ cred (tallyAt (barCell c) () 1)
      ∗ (bigSep Finset.univ fun k : Fin 4 => cred (tallyAt (recvCell c k) () N)) ∗ levAts L lv)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.KernelIdeal.AG

end
-- ==== Proof.AgStored.lean ====
/-
  What a freshly stored chunk holds.

  For chunk `k` the kernel loads rows `256 k` to `256 k + 255` of its own block, converts every entry to the narrower
  format, and stores the result over rows `1024 h + 256 k ..` of its result buffer, `h` its own half. Entry
  `(1024 h + 256 k + y, x)` of the buffer is then the conversion of entry `(256 k + y, x)` of the block, which is what
  the gathered array has there: the index's half is `h`, held by the device itself, and its row inside the half is
  `256 k + y`.
-/
import proofs.«900669_g7700000000000670_dist_ag_v7x_xyz2x2x2_z_m1024_n512_bf16_1_alg».proof.Proof.AgChunks
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the two rectangles put a block index -/

omit [FloatOps F] in
/-- The store's rectangle puts block index `(r, x)` at row `1024 h + 256 k + r`, column `x` of the result buffer,
    `h` the device's half: a unit-stride rectangle adds its offsets, and the buffer is indexed by itself. -/
theorem store_emb_val (c : Dev nD) (k : Fin 4) (y : S256x512.Idx) :
    ((((oM : Memref sig .tc .vmem S2048x512 .bf16).access (storeR c k) : View sig .tc _ _ _).emb y) 0).val
        = 1024 * (c.val % 2) + 256 * k.val + (y 0).val
      ∧ ((((oM : Memref sig .tc .vmem S2048x512 .bf16).access (storeR c k) : View sig .tc _ _ _).emb y) 1).val = (y 1).val := by
  have e : ∀ a : Fin 2, ((((oM : Memref sig .tc .vmem S2048x512 .bf16).access (storeR c k) : View sig .tc _ _ _).emb y) a).val
      = (![1024 * (c.val % 2) + 256 * k.val, 0] : Fin 2 → Nat) a + 1 * (y a).val := by
    intro a
    rw [← k0_off1_eq c k]
    rfl
  constructor
  · rw [e 0]; show 1024 * (c.val % 2) + 256 * k.val + 1 * (y 0).val = _; omega
  · rw [e 1]; show 0 + 1 * (y 1).val = _; omega

omit [FloatOps F] in
/-- The load's rectangle puts block index `(r, x)` at row `256 k + r`, column `x` of the input block. -/
theorem load_idx_val (k : Fin 4) (y : S256x512.Idx) :
    (((xR k).toLoadRect.idx y) 0).val = 256 * k.val + (y 0).val ∧ (((xR k).toLoadRect.idx y) 1).val = (y 1).val := by
  constructor
  · show 256 * k.val + 1 * (y 0).val = _; omega
  · show 0 + 1 * (y 1).val = _; omega

/-! ## The stored value at a block index -/

/-- The value the kernel stores, at a block index: the conversion of the loaded entry at the same index. The
    reshaping between equal shapes moves nothing, and the conversion acts entry by entry. -/
theorem pay1_apply (v : Vec F S256x512 .f32) (y : S256x512.Idx) :
    k0_pay1 v y = FloatOps.truncf .bf16 bitsLt_bf16_f32 (v y) := by
  show FloatOps.truncf .bf16 bitsLt_bf16_f32 (shapeCast S256x512 v shapeCasts_S256x512_S256x512 y) = _
  rw [shapeCast_self]

/-! ## The chunk after the store -/

/-- Chunk `k` as the kernel has just stored it — the conversion of rows `256 k ..` of its own
    block — agrees with the gathered array on the chunk. -/
theorem stored_agrees (c : Dev nD) (k : Fin 4) (f : Buf (Elt F) ((c : Thread nD τ).loc cc0_stg1_0)) :
    ∀ i ∈ (chunkR c k).set,
      ((oM : Memref sig .tc .vmem S2048x512 .bf16).access (storeR c k) : View sig .tc _ _ _).write (Elt F) f
        (k0_pay1 ((xM : Memref sig .tc .vmem S1024x512 .f32).view.readAt (Elt F) (xR k).toLoadRect (xstg m c))) Finset.univ i
      = outAt m c i := by
  intro i hi
  rw [mem_chunk] at hi
  obtain ⟨hlo, hhi⟩ := hi
  have hc := half_lt c
  have hk : k.val < 4 := k.isLt
  have h0 : (i 0).val < 2048 := (i 0).isLt
  have h1 : (i 1).val < 512 := (i 1).isLt
  -- the index sits `r` rows below the chunk's first row; `(r, column)` is its place in the stored block
  let y : S256x512.Idx :=
    ValueIdx.ix2 (⟨(i 0).val - (1024 * (c.val % 2) + 256 * k.val), by omega⟩ : Fin 256) (⟨(i 1).val, h1⟩ : Fin 512)
  have hy0 : (y 0).val = (i 0).val - (1024 * (c.val % 2) + 256 * k.val) := rfl
  have hy1 : (y 1).val = (i 1).val := rfl
  have hyi : ((oM : Memref sig .tc .vmem S2048x512 .bf16).access (storeR c k) : View sig .tc _ _ _).emb y = i := by
    obtain ⟨e0, e1⟩ := store_emb_val c k y
    exact Shape.idx_ext₂ (by rw [e0, hy0]; omega) (by rw [e1, hy1])
  -- the buffer there holds the stored block's entry at `(r, column)`
  have hw := View.write_emb_of_mem
    (v := ((oM : Memref sig .tc .vmem S2048x512 .bf16).access (storeR c k) : View sig .tc _ _ _)) (Val := Elt F) f
    (k0_pay1 ((xM : Memref sig .tc .vmem S1024x512 .f32).view.readAt (Elt F) (xR k).toLoadRect (xstg m c)))
    (Finset.mem_univ y)
  rw [hyi] at hw
  rw [hw, cast_eq, pay1_apply]
  -- the index's half is the device's own, and the loaded entry is the one at the index's row inside that half
  have hdiv : (i 0).val / 1024 = c.val % 2 := by omega
  have hidx : (xR k).toLoadRect.idx y = rowIn i := by
    obtain ⟨e0, e1⟩ := load_idx_val k y
    exact Shape.idx_ext₂ (by rw [e0, hy0]; show _ = (i 0).val % 1024; omega) (by rw [e1, hy1])
  unfold outAt
  rw [hdiv, halfDev_self, ← hidx]
  rfl

end Cert.KernelIdeal.AG

end
-- ==== Proof.AgBody.lean ====
/-
  One device's kernel body, stepped once at a symbolic device.

  The device owns its result buffer whole on entry. It cuts it into its own four chunks and the four of the other
  half. The other half it hands to its partner with the barrier signal: the partner may now write there. Waiting on its
  own barrier it receives the same from the partner: its half of the partner's buffer. Chunk by chunk it then stores the
  conversion of 256 rows of its block into its own half, which makes that chunk agree with the gathered array, and
  sends the chunk to the same rows of the partner's buffer, paying the partner's receive cell with the chunk as it
  lands and its own send cell with the source. The eight waits give back its own four chunks and bring the partner's
  four, every one agreeing with the gathered array; the eight own cells close at zero and the chunks join back to the
  whole buffer holding the gathered array.
-/
import proofs.«900669_g7700000000000670_dist_ag_v7x_xyz2x2x2_z_m1024_n512_bf16_1_alg».proof.Proof.AgSched
import proofs.«900669_g7700000000000670_dist_ag_v7x_xyz2x2x2_z_m1024_n512_bf16_1_alg».proof.Proof.AgStored

set_option Elab.async false

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 9 → ℕ)

theorem fetch_0 (t : Fin cfg0.N) : (cfg0.win (0 : Fin 2)).fetch t = true := by rw [fin_N t]; rfl

/-- The partner's barrier payload, as the device that pays it reads it: its own buffer's other half. -/
theorem payload_barP (c : Dev nD) (d : Unit) : (ringRd (F := F) m).payload (barCell (pr c)) 0 d
    = iprop((∃ f, cPts c (pr c) 0 f) ∗ (∃ f, cPts c (pr c) 1 f) ∗ (∃ f, cPts c (pr c) 2 f) ∗ (∃ f, cPts c (pr c) 3 f)) := by
  rw [payload_bar]; unfold barPay; rw [pr_pr]

omit [FloatOps F] in
/-- The four chunks of the other half of its own buffer are what a device pays its partner's barrier with. -/
theorem barPay_intro (c : Dev nD) (g : Buf (Elt F) ((c : Thread nD τ).loc cc0_stg1_0)) :
    iprop(cPts c (pr c) 0 g ∗ cPts c (pr c) 1 g ∗ cPts c (pr c) 2 g ∗ cPts c (pr c) 3 g) ⊢ (barPay (pr c) : sProp 𝕄) := by
  unfold barPay; rw [pr_pr]
  iintro ⟨H0, H1, H2, H3⟩
  isplitl [H0]; · iexists g; iexact H0
  isplitl [H1]; · iexists g; iexact H1
  isplitl [H2]; · iexists g; iexact H2
  iexists g; iexact H3

omit [FloatOps F] in
/-- The input buffer whole, read through its memref's view. -/
theorem xPts_eq (c : Dev nD) :
    ((((xM : Memref sig .tc .vmem S1024x512 .f32).view.loc (c : Thread nD τ)) ↦[(xM : Memref sig .tc .vmem S1024x512 .f32).view.set]{fullShare} xstg m c) : sProp 𝕄)
      = (((c : Thread nD τ).loc cc0_stg0_0) ↦{fullShare} xstg m c) := by
  rw [View.set_whole]

omit [FloatOps F] in
/-- The rectangle the kernel loads and stores chunk `k` through is the chunk. -/
theorem access_set_eq (c : Dev nD) (k : Fin 4) :
    ((oM : Memref sig .tc .vmem S2048x512 .bf16).access (storeR c k) : View sig .tc _ _ _).set = (chunkM c k).view.set :=
  (View.set_slice_whole cc0_stg1_0 (storeR c k)).trans ((storeR_set c k).trans (cset_eq c k).symm)

/-- A chunk as just stored holds the gathered array's entries. -/
theorem stored_chunk (c : Dev nD) (k : Fin 4) (g : Buf (Elt F) ((c : Thread nD τ).loc cc0_stg1_0))
    (pay : Vec F S256x512 .f32 → FVec F S256x512 .bf16) (hp : pay = k0_pay1) :
    (((chunkM c k).view.loc (c : Thread nD τ)) ↦[(chunkM c k).view.set]{fullShare}
        (((oM : Memref sig .tc .vmem S2048x512 .bf16).access (storeR c k) : View sig .tc _ _ _).write (Elt F) g
          (pay ((xM : Memref sig .tc .vmem S1024x512 .f32).view.readAt (Elt F) (xR k).toLoadRect (xstg m c))) Finset.univ) : sProp 𝕄)
      ⊢ cPts c c k (outAt m c) := by
  subst hp
  unfold cPts
  exact Entails.of_eq (pointsTo_congr (fun i hi => stored_agrees m c k g i ((cset_eq c k) ▸ hi)))

/-- The copy of chunk `k` to the partner `n = pr c`: the source, agreeing with the gathered array on the chunk, goes to the
    send cell; the same rows of the partner's buffer, at whatever they held, go to the partner's receive cell holding what
    was copied, which is the gathered array's entries there. The device stops owing that receive credit and gets its send
    cell's credit. -/
theorem wp_send_chunk (c n : Dev nD) (hn : n = pr c) (k : Fin 4)
    {hsc : (chunkM c k : Memref sig (Dev.tc n : Thread nD τ).2.kind .vmem S256x512 .bf16).view.ref.isScScratch = false}
    {hsrc : (chunkM c k : Memref sig .tc .vmem S256x512 .bf16).view.WordExact} {hdst : (chunkM c k : Memref sig .tc .vmem S256x512 .bf16).view.WordExact}
    {hsem : DmaTarget.Typed .vmem (.dma (recvS k)) (.remote (Dev.tc n : Thread nD τ) (chunkM c k : Memref sig .tc .vmem S256x512 .bf16) (.dma (sendS k)) hsc)}
    {α : Type} {Q : α → sProp 𝕄} {kont : PUnit → Prog (TpuEff nD τ sig (Elt F) Λ₀ .tc) α}
    (fd : Buf (Elt F) (((pr c : Dev nD) : Thread nD τ).loc cc0_stg1_0)) (O : CellTallies nD τ sig Unit) (W : Waits sig Unit) :
    iprop(cellInv ER (ringRd m) (K (c, sIdx k)) (sendCell c k) ∗ cellInv ER (ringRd m) (K (pr c, rIdx k)) (recvCell (pr c) k)
        ∗ cPts c c k (outAt m c) ∗ cPts (pr c) c k fd
        ∗ owes (c : Thread nD τ) (O + Rk c k) W
        ∗ dutyTok ER (sendCell c k) 0 () ∗ reached ER (sendCell c k) 0
        ∗ dutyTok ER (recvCell (pr c) k) 0 () ∗ reached ER (recvCell (pr c) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chunkM c k) (.remote (Dev.tc n : Thread nD τ) (chunkM c k) (.dma (sendS k)) hsc) (.dma (recvS k)) hsrc hdst hsem) kont) Q) := by
  subst hn
  unfold cPts
  exact Rounds.wp_send_pointsTo 𝒱₀ ER (ringRd m) (c : Thread nD τ) none (c' := (Dev.tc (pr c) : Thread nD τ))
    (src := (chunkM c k : Memref sig .tc .vmem S256x512 .bf16)) (dst := (chunkM c k : Memref sig .tc .vmem S256x512 .bf16)) (q := fullShare)
    (κ₁ := K (c, sIdx k)) (κ₂ := K (pr c, rIdx k))
    (r₁ := 0) (r₂ := 0) (d₁ := ()) (d₂ := ()) (fs := outAt m c) (fd := fd)
    (by rw [duties_send]; exact Finset.mem_singleton_self _) (by rw [duties_recv]; exact Finset.mem_singleton_self _)
    () () N rfl (amount_send m c k ()) (amount_recv m (pr c) k ()) O rfl (W := W)
    (by rw [payload_send]; unfold sendPay cPts; exact BI.Entails.refl _)
    (by rw [payload_recv]; unfold recvPay cPts; rw [pr_pr]
        exact Entails.of_eq (pointsTo_congr (fun i hi => landed_agrees m c k fd i ((cset_eq c k) ▸ hi))))

/-- What a finished wait on a send or a receive cell hands over: the cell's one payload. -/
theorem got_send (c : Dev nD) (k : Fin 4) :
    bigSep ((ringRd (F := F) m).duties (sendCell c k) 0) (fun d => (ringRd (F := F) m).payload (sendCell c k) 0 d) = cPts c c k (outAt m c) := by
  rw [duties_send, bigSep_singleton, payload_send]; rfl
theorem got_recv (c : Dev nD) (k : Fin 4) :
    bigSep ((ringRd (F := F) m).duties (recvCell c k) 0) (fun d => (ringRd (F := F) m).payload (recvCell c k) 0 d) = cPts c (pr c) k (outAt m c) := by
  rw [duties_recv, bigSep_singleton, payload_recv]; rfl

/-- The wait on send cell `k`, owing nothing: the device's own chunk `k` comes back holding the gathered array's entries. -/
theorem wp_wait_send (c : Dev nD) (k : Fin 4)
    {hs : (chunkM c k : Memref sig .tc .vmem S256x512 .bf16).view.WordExact} {hd : (chunkM c k : Memref sig .tc .vmem S256x512 .bf16).view.WordExact}
    {α : Type} {Q : α → sProp 𝕄} {kont : PUnit → Prog (TpuEff nD τ sig (Elt F) Λ₀ .tc) α} (W : Waits sig Unit) :
    iprop(cellInv ER (ringRd m) (K (c, sIdx k)) (sendCell c k) ∗ cred (tallyAt (sendCell c k) () N)
        ∗ owes (c : Thread nD τ) 0 W ∗ atPos ER (sendCell c k) 0 ∅ 0)
      ⊢ iprop(((owes (c : Thread nD τ) 0 (insert (SemLoc.dma (sendS k), ()) W) ∗ atPos ER (sendCell c k) 1 ∅ 0 ∗ cPts c c k (outAt m c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS k) (chunkM c k) (chunkM c k) hs hd) kont) Q) := by
  iintro ⟨#HI, Hc, HO, Hat⟩ Hk
  iapply (Rounds.wp_wait_rest_token 𝒱₀ ER (ringRd m) (c : Thread nD τ) none (κ := K (c, sIdx k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  iapply Hk
  isplitl [HO]; · iexact HO
  isplitl [Hat]; · iexact Hat
  unfold sendPay
  iexact Hp

/-- The wait on receive cell `k`, owing nothing: the partner's chunk `k` has landed, holding the gathered array's entries. -/
theorem wp_wait_recv (c : Dev nD) (k : Fin 4)
    {hs : (chunkM c k : Memref sig .tc .vmem S256x512 .bf16).view.WordExact} {hd : (chunkM c k : Memref sig .tc .vmem S256x512 .bf16).view.WordExact}
    {α : Type} {Q : α → sProp 𝕄} {kont : PUnit → Prog (TpuEff nD τ sig (Elt F) Λ₀ .tc) α} (W : Waits sig Unit) :
    iprop(cellInv ER (ringRd m) (K (c, rIdx k)) (recvCell c k) ∗ cred (tallyAt (recvCell c k) () N)
        ∗ owes (c : Thread nD τ) 0 W ∗ atPos ER (recvCell c k) 0 ∅ 0)
      ⊢ iprop(((owes (c : Thread nD τ) 0 (insert (SemLoc.dma (recvS k), ()) W) ∗ atPos ER (recvCell c k) 1 ∅ 0 ∗ cPts c (pr c) k (outAt m c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvS k) (chunkM c k) (chunkM c k) hs hd) kont) Q) := by
  iintro ⟨#HI, Hc, HO, Hat⟩ Hk
  iapply (Rounds.wp_wait_rest_token 𝒱₀ ER (ringRd m) (c : Thread nD τ) none (κ := K (c, rIdx k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c k)) $$ Hpay
  iapply Hk
  isplitl [HO]; · iexact HO
  isplitl [Hat]; · iexact Hat
  unfold recvPay
  iexact Hp

attribute [local sl_canon] dev1_eq dev2_eq dev3_eq dev4_eq dev5_eq
attribute [local sl_rounds] payload_barP
attribute [local sl_rounds] duties_bar duties_send duties_recv amount_bar amount_send amount_recv expect_bar expect_send expect_recv
  payload_bar payload_send payload_recv

set_option maxHeartbeats 1600000 in
/-- The body from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  unfold bodyPre ghost invs
  simp only [bigSep_fin4]
  iintro ⟨⟨⟨⟨⟨#HIbar, ⟨#HIs0, #HIs1, #HIs2, #HIs3⟩, ⟨#HIr0, #HIr1, #HIr2, #HIr3⟩, #HIbarP, ⟨#HIp0, #HIp1, #HIp2, #HIp3⟩⟩,
      HatB, ⟨HatS0, HatS1, HatS2, HatS3⟩, ⟨HatR0, HatR1, HatR2, HatR3⟩,
      #HrBP, ⟨#HrP0, #HrP1, #HrP2, #HrP3⟩, ⟨#HrS0, #HrS1, #HrS2, #HrS3⟩,
      HtBP, ⟨HtP0, HtP1, HtP2, HtP3⟩, ⟨HtS0, HtS1, HtS2, HtS3⟩⟩,
      HcB, ⟨HcR0, HcR1, HcR2, HcR3⟩, #Hlev⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  -- the result buffer as its eight chunks
  ihave H8 := (Entails.of_eq (whole_eq_chunks c g1)) $$ Hout
  unfold four
  icases H8 with ⟨⟨Hw0, Hw1, Hw2, Hw3⟩, ⟨Hq0, Hq1, Hq2, Hq3⟩⟩
  -- the other half, as the one thing the partner's barrier is paid with
  ihave Hpay := (barPay_intro (F := F) c g1) $$ [Hq0 Hq1 Hq2 Hq3]
  · isplitl [Hq0]; · iexact Hq0
    isplitl [Hq1]; · iexact Hq1
    isplitl [Hq2]; · iexact Hq2
    iexact Hq3
  ihave Hx' := (Entails.of_eq (xPts_eq (F := F) m c).symm) $$ Hx
  ihave #HmwB := (mayWait_bar (F := F) c) $$ Hlev
  have hsub0 := Finset.subset_of_eq (access_set_eq c 0)
  have hsub1 := Finset.subset_of_eq (access_set_eq c 1)
  have hsub2 := Finset.subset_of_eq (access_set_eq c 2)
  have hsub3 := Finset.subset_of_eq (access_set_eq c 3)
  have hst0 : ((Memref.whole cc0_stg1_0 : Memref sig .tc .vmem S2048x512 .bf16).access (Rect.unit (s := S2048x512) (k0_off1 c 0#32) S256x512.size (k0_off1_inb c 0)) : View sig .tc _ _ _).setOn Finset.univ ⊆ (chunkM c 0).view.set := hsub0
  have hst1 : ((Memref.whole cc0_stg1_0 : Memref sig .tc .vmem S2048x512 .bf16).access (Rect.unit (s := S2048x512) (k0_off1 c 256#32) S256x512.size (k0_off1_inb c 1)) : View sig .tc _ _ _).setOn Finset.univ ⊆ (chunkM c 1).view.set := hsub1
  have hst2 : ((Memref.whole cc0_stg1_0 : Memref sig .tc .vmem S2048x512 .bf16).access (Rect.unit (s := S2048x512) (k0_off1 c 512#32) S256x512.size (k0_off1_inb c 2)) : View sig .tc _ _ _).setOn Finset.univ ⊆ (chunkM c 2).view.set := hsub2
  have hst3 : ((Memref.whole cc0_stg1_0 : Memref sig .tc .vmem S2048x512 .bf16).access (Rect.unit (s := S2048x512) (k0_off1 c 768#32) S256x512.size (k0_off1_inb c 3)) : View sig .tc _ _ _).setOn Finset.univ ⊆ (chunkM c 3).view.set := hsub3
  unfold cPts
  sl_unfold [cc0_body]
  sl_exec_parts
  -- the partner's signal brought the four chunks of this device's half of the partner's buffer
  unfold barPay
  icases HatB_pay1 with ⟨⟨%f0, Hd0⟩, ⟨%f1, Hd1⟩, ⟨%f2, Hd2⟩, ⟨%f3, Hd3⟩⟩
  -- chunk 0: stored, it agrees with the gathered array; it goes to the same rows of the partner's buffer
  sl_unfold_run_names
  ihave Hw0 := (stored_chunk m c 0 g1 k0_pay1 rfl) $$ Hw0
  iapply (wp_send_chunk m K c _ (dev2_eq c) 0 f0 (Os1 c) _) $$ [Hw0 Hd0 HO HtS0 HtP0]
  · isplitr; · iexact HIs0
    isplitr; · iexact HIp0
    isplitl [Hw0]; · iexact Hw0
    isplitl [Hd0]; · iexact Hd0
    isplitl [HO]; · iexact HO
    isplitl [HtS0]; · iexact HtS0
    isplitr; · iexact HrS0
    isplitl [HtP0]; · iexact HtP0
    iexact HrP0
  iintro ⟨HcS0, HO⟩
  sl_exec_parts
  -- chunk 1
  sl_unfold_run_names
  ihave Hw1 := (stored_chunk m c 1 g1 k0_pay2 rfl) $$ Hw1
  iapply (wp_send_chunk m K c _ (dev3_eq c) 1 f1 (Os2 c) _) $$ [Hw1 Hd1 HO HtS1 HtP1]
  · isplitr; · iexact HIs1
    isplitr; · iexact HIp1
    isplitl [Hw1]; · iexact Hw1
    isplitl [Hd1]; · iexact Hd1
    isplitl [HO]; · iexact HO
    isplitl [HtS1]; · iexact HtS1
    isplitr; · iexact HrS1
    isplitl [HtP1]; · iexact HtP1
    iexact HrP1
  iintro ⟨HcS1, HO⟩
  sl_exec_parts
  -- chunk 2
  sl_unfold_run_names
  ihave Hw2 := (stored_chunk m c 2 g1 k0_pay3 rfl) $$ Hw2
  iapply (wp_send_chunk m K c _ (dev4_eq c) 2 f2 (Os3 c) _) $$ [Hw2 Hd2 HO HtS2 HtP2]
  · isplitr; · iexact HIs2
    isplitr; · iexact HIp2
    isplitl [Hw2]; · iexact Hw2
    isplitl [Hd2]; · iexact Hd2
    isplitl [HO]; · iexact HO
    isplitl [HtS2]; · iexact HtS2
    isplitr; · iexact HrS2
    isplitl [HtP2]; · iexact HtP2
    iexact HrP2
  iintro ⟨HcS2, HO⟩
  sl_exec_parts
  rw [show Os3 c = 0 + Rk c 3 from (zero_add _).symm]
  -- chunk 3
  sl_unfold_run_names
  ihave Hw3 := (stored_chunk m c 3 g1 k0_pay4 rfl) $$ Hw3
  iapply (wp_send_chunk m K c _ (dev5_eq c) 3 f3 (0) _) $$ [Hw3 Hd3 HO HtS3 HtP3]
  · isplitr; · iexact HIs3
    isplitr; · iexact HIp3
    isplitl [Hw3]; · iexact Hw3
    isplitl [Hd3]; · iexact Hd3
    isplitl [HO]; · iexact HO
    isplitl [HtS3]; · iexact HtS3
    isplitr; · iexact HrS3
    isplitl [HtP3]; · iexact HtP3
    iexact HrP3
  iintro ⟨HcS3, HO⟩
  -- the eight credits, set aside in the order of the waits
  ihave Hcr := (show (iprop(cred (tallyAt (sendCell c 0) () N) ∗ cred (tallyAt (recvCell c 0) () N) ∗ cred (tallyAt (sendCell c 1) () N) ∗ cred (tallyAt (recvCell c 1) () N) ∗ cred (tallyAt (sendCell c 2) () N) ∗ cred (tallyAt (recvCell c 2) () N) ∗ cred (tallyAt (sendCell c 3) () N) ∗ cred (tallyAt (recvCell c 3) () N) ∗ emp) : sProp 𝕄) ⊢ iprop(cred (tallyAt (sendCell c 0) () N) ∗ cred (tallyAt (recvCell c 0) () N) ∗ cred (tallyAt (sendCell c 1) () N) ∗ cred (tallyAt (recvCell c 1) () N) ∗ cred (tallyAt (sendCell c 2) () N) ∗ cred (tallyAt (recvCell c 2) () N) ∗ cred (tallyAt (sendCell c 3) () N) ∗ cred (tallyAt (recvCell c 3) () N) ∗ emp) from BI.Entails.refl _) $$ [HcS0 HcR0 HcS1 HcR1 HcS2 HcR2 HcS3 HcR3]
  · isplitl [HcS0]; · iexact HcS0
    isplitl [HcR0]; · iexact HcR0
    isplitl [HcS1]; · iexact HcS1
    isplitl [HcR1]; · iexact HcR1
    isplitl [HcS2]; · iexact HcS2
    isplitl [HcR2]; · iexact HcR2
    isplitl [HcS3]; · iexact HcS3
    isplitl [HcR3]; · iexact HcR3
    iempintro
  sl_exec
  -- the wait on its send cell 0
  icases Hcr with ⟨Hc, Hcr⟩
  iapply (wp_wait_send m K c 0 _) $$ [Hc HO HatS0]
  · isplitr; · iexact HIs0
    isplitl [Hc]; · iexact Hc
    isplitl [HO]; · iexact HO
    iexact HatS0
  iintro ⟨HO, HatS0, Hs0⟩
  sl_exec
  -- the wait on its receive cell 0
  icases Hcr with ⟨Hc, Hcr⟩
  iapply (wp_wait_recv m K c 0 _) $$ [Hc HO HatR0]
  · isplitr; · iexact HIr0
    isplitl [Hc]; · iexact Hc
    isplitl [HO]; · iexact HO
    iexact HatR0
  iintro ⟨HO, HatR0, Hr0⟩
  sl_exec
  -- the wait on its send cell 1
  icases Hcr with ⟨Hc, Hcr⟩
  iapply (wp_wait_send m K c 1 _) $$ [Hc HO HatS1]
  · isplitr; · iexact HIs1
    isplitl [Hc]; · iexact Hc
    isplitl [HO]; · iexact HO
    iexact HatS1
  iintro ⟨HO, HatS1, Hs1⟩
  sl_exec
  -- the wait on its receive cell 1
  icases Hcr with ⟨Hc, Hcr⟩
  iapply (wp_wait_recv m K c 1 _) $$ [Hc HO HatR1]
  · isplitr; · iexact HIr1
    isplitl [Hc]; · iexact Hc
    isplitl [HO]; · iexact HO
    iexact HatR1
  iintro ⟨HO, HatR1, Hr1⟩
  sl_exec
  -- the wait on its send cell 2
  icases Hcr with ⟨Hc, Hcr⟩
  iapply (wp_wait_send m K c 2 _) $$ [Hc HO HatS2]
  · isplitr; · iexact HIs2
    isplitl [Hc]; · iexact Hc
    isplitl [HO]; · iexact HO
    iexact HatS2
  iintro ⟨HO, HatS2, Hs2⟩
  sl_exec
  -- the wait on its receive cell 2
  icases Hcr with ⟨Hc, Hcr⟩
  iapply (wp_wait_recv m K c 2 _) $$ [Hc HO HatR2]
  · isplitr; · iexact HIr2
    isplitl [Hc]; · iexact Hc
    isplitl [HO]; · iexact HO
    iexact HatR2
  iintro ⟨HO, HatR2, Hr2⟩
  sl_exec
  -- the wait on its send cell 3
  icases Hcr with ⟨Hc, Hcr⟩
  iapply (wp_wait_send m K c 3 _) $$ [Hc HO HatS3]
  · isplitr; · iexact HIs3
    isplitl [Hc]; · iexact Hc
    isplitl [HO]; · iexact HO
    iexact HatS3
  iintro ⟨HO, HatS3, Hs3⟩
  sl_exec
  -- the wait on its receive cell 3
  icases Hcr with ⟨Hc, Hcr⟩
  iapply (wp_wait_recv m K c 3 _) $$ [Hc HO HatR3]
  · isplitr; · iexact HIr3
    isplitl [Hc]; · iexact Hc
    isplitl [HO]; · iexact HO
    iexact HatR3
  iintro ⟨HO, HatR3, Hr3⟩
  sl_exec
  -- the eight own cells close: their counters at zero are the device's again
  imod (Rounds.cell_close ER (ringRd m) (Set.mem_univ (K (c, sIdx 0))) (fun h => h) (R := 1) (duties_later m (sendCell c 0))) $$ [HatS0] with HzS0
  · isplitr; · iexact HIs0
    iexact HatS0
  imod (Rounds.cell_close ER (ringRd m) (Set.mem_univ (K (c, sIdx 1))) (fun h => h) (R := 1) (duties_later m (sendCell c 1))) $$ [HatS1] with HzS1
  · isplitr; · iexact HIs1
    iexact HatS1
  imod (Rounds.cell_close ER (ringRd m) (Set.mem_univ (K (c, sIdx 2))) (fun h => h) (R := 1) (duties_later m (sendCell c 2))) $$ [HatS2] with HzS2
  · isplitr; · iexact HIs2
    iexact HatS2
  imod (Rounds.cell_close ER (ringRd m) (Set.mem_univ (K (c, sIdx 3))) (fun h => h) (R := 1) (duties_later m (sendCell c 3))) $$ [HatS3] with HzS3
  · isplitr; · iexact HIs3
    iexact HatS3
  imod (Rounds.cell_close ER (ringRd m) (Set.mem_univ (K (c, rIdx 0))) (fun h => h) (R := 1) (duties_later m (recvCell c 0))) $$ [HatR0] with HzR0
  · isplitr; · iexact HIr0
    iexact HatR0
  imod (Rounds.cell_close ER (ringRd m) (Set.mem_univ (K (c, rIdx 1))) (fun h => h) (R := 1) (duties_later m (recvCell c 1))) $$ [HatR1] with HzR1
  · isplitr; · iexact HIr1
    iexact HatR1
  imod (Rounds.cell_close ER (ringRd m) (Set.mem_univ (K (c, rIdx 2))) (fun h => h) (R := 1) (duties_later m (recvCell c 2))) $$ [HatR2] with HzR2
  · isplitr; · iexact HIr2
    iexact HatR2
  imod (Rounds.cell_close ER (ringRd m) (Set.mem_univ (K (c, rIdx 3))) (fun h => h) (R := 1) (duties_later m (recvCell c 3))) $$ [HatR3] with HzR3
  · isplitr; · iexact HIr3
    iexact HatR3
  -- the eight chunks are the whole buffer again, holding the gathered array
  ihave Hout := (Entails.of_eq (whole_eq_chunks c (outAt m c)).symm) $$ [Hs0 Hs1 Hs2 Hs3 Hr0 Hr1 Hr2 Hr3]
  · unfold four
    isplitl [Hs0 Hs1 Hs2 Hs3]
    · isplitl [Hs0]; · iexact Hs0
      isplitl [Hs1]; · iexact Hs1
      isplitl [Hs2]; · iexact Hs2
      iexact Hs3
    · isplitl [Hr0]; · iexact Hr0
      isplitl [Hr1]; · iexact Hr1
      isplitl [Hr2]; · iexact Hr2
      iexact Hr3
  ihave Hx := (Entails.of_eq (xPts_eq (F := F) m c)) $$ Hx'
  rw [wp_ret]; imodintro
  iapply Hk
  unfold bodyPost Φ₁ Dat.owesAt Pipeline.owesWithin
  rw [show (dats m 0 c).owed t₀.succ = 0 from rfl]
  simp only [bigSep_fin4]
  isplitl [HzS0 HzS1 HzS2 HzS3 HzR0 HzR1 HzR2 HzR3]
  · isplitl [HzS0 HzS1 HzS2 HzS3]
    · isplitl [HzS0]; · iexact HzS0
      isplitl [HzS1]; · iexact HzS1
      isplitl [HzS2]; · iexact HzS2
      iexact HzS3
    · isplitl [HzR0]; · iexact HzR0
      isplitl [HzR1]; · iexact HzR1
      isplitl [HzR2]; · iexact HzR2
      iexact HzR3
  isplitl [HO]
  · iexists (insert (SemLoc.dma (recvS 3), ()) (insert (SemLoc.dma (sendS 3), ()) (insert (SemLoc.dma (recvS 2), ())
      (insert (SemLoc.dma (sendS 2), ()) (insert (SemLoc.dma (recvS 1), ()) (insert (SemLoc.dma (sendS 1), ())
      (insert (SemLoc.dma (recvS 0), ()) (insert (SemLoc.dma (sendS 0), ()) (insert (SemLoc.reg barS, ()) W)))))))))
    isplitr; · ipureintro; exact fun _ _ => Or.inl trivial
    iexact HO
  isplitl [Hx]
  · iexists _; isplitr; · (ipureintro; rfl)
    iexact Hx
  iexists _; isplitr; · (ipureintro; rfl)
  iexact Hout

end Body

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at its one point: the exchange's state at launch, what the device owes, and
    the two staging buffers whole. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m c)
  unfold bodyPre' Φ₀ start
  iintro ⟨⟨⟨%K, Hg⟩, Hrest⟩, Ho, Hx, Hout⟩
  iapply (sound_body m K c fun _ => bodyPost m c)
  unfold bodyPre
  isplitr []
  · isplitl [Hg Hrest]
    · isplitl [Hg]; · iexact Hg
      iexact Hrest
    isplitl [Ho]; · iexact Ho
    isplitl [Hx] <;> iassumption
  · iintro H; iexact H

end Cert.KernelIdeal.AG

end
-- ==== Proof.AgLaunch.lean ====
/-
  The launch: from every device's body to a run of the whole mesh.

  Every device has nine cells: its barrier cell, four send cells and four receive cells. The launch element of the
  exchange's algebra holds, for each of the 72 cells, its round state at counter zero, that round 0 is reached, the
  owner's position and the token of the cell's one duty. Each device turns its nine counters at zero and the nine
  round states into nine invariants; the invariants' names and the reached facts are then shared by all, and the
  tokens change hands: a barrier token and the four receive tokens go to the partner, who pays those duties, the
  four send tokens stay. What a device is owed at launch is one barrier unit and four chunks' worth of receive
  credit, all by its partner.

  At the end the result window, being the whole array at its one block, holds exactly what the body left in its
  staging buffer: the gathered array.
-/
import proofs.«900669_g7700000000000670_dist_ag_v7x_xyz2x2x2_z_m1024_n512_bf16_1_alg».proof.Proof.AgBody
import proofs.«900669_g7700000000000670_dist_ag_v7x_xyz2x2x2_z_m1024_n512_bf16_1_alg».proof.Proof.Gen.KernelIdeal.Points

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells by index -/

/-- The kernel's own eight semaphores: the four send ones, then the four receive ones. -/
abbrev osem : Fin 8 → SemLoc sig
  | 0 => .dma (sendS 0) | 1 => .dma (sendS 1) | 2 => .dma (sendS 2) | 3 => .dma (sendS 3)
  | 4 => .dma (recvS 0) | 5 => .dma (recvS 1) | 6 => .dma (recvS 2) | 7 => .dma (recvS 3)

/-- All nine of a device's cells: the barrier semaphore, the send ones, the receive ones. -/
abbrev csem : Fin 9 → SemLoc sig
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)

abbrev kcell (ck : Dev nD × Fin 9) : GSem nD τ sig := ((ck.1 : Thread nD τ), csem ck.2)

theorem csem_send (k : Fin 4) : csem (sIdx k) = .dma (sendS k) := by fin_cases k <;> rfl
theorem csem_recv (k : Fin 4) : csem (rIdx k) = .dma (recvS k) := by fin_cases k <;> rfl
theorem kcell_bar (c : Dev nD) : kcell (c, 0) = barCell c := rfl
theorem kcell_send (c : Dev nD) (k : Fin 4) : kcell (c, sIdx k) = sendCell c k := by fin_cases k <;> rfl
theorem kcell_recv (c : Dev nD) (k : Fin 4) : kcell (c, rIdx k) = recvCell c k := by fin_cases k <;> rfl

/-- A number for each semaphore: the barrier's 0, a DMA semaphore's own value. -/
def semNum : SemLoc sig → ℕ
  | .reg _ => 0
  | .dma q => q.val

theorem semNum_csem (j : Fin 9) : semNum (csem j) = if j.val = 0 then 0 else j.val + 1 := by fin_cases j <;> rfl

theorem csem_injective : Function.Injective csem := by
  intro j j' h
  have h' := congrArg semNum h
  rw [semNum_csem, semNum_csem] at h'
  apply Fin.ext
  split_ifs at h' <;> omega

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

theorem ownSemFacts : Pipeline.OwnSemFacts cfg0.spec osem := by decide

theorem share_eq (c : Dev nD) (w : Fin cfg0.W) : (dats m 0 c).share w = fullShare := by unfold Dat.share; split <;> rfl

omit [FloatOps F] in
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- Nine cells are the barrier cell, the four send cells and the four receive cells. -/
theorem bigSep_nine (Φ : Fin 9 → sProp 𝕄) :
    bigSep Finset.univ Φ
      = iprop(Φ 0 ∗ (bigSep Finset.univ fun k : Fin 4 => Φ (sIdx k)) ∗ (bigSep Finset.univ fun k : Fin 4 => Φ (rIdx k))) := by
  rw [bigSep_fin9, bigSep_fin4, bigSep_fin4]
  show iprop(Φ 0 ∗ Φ 1 ∗ Φ 2 ∗ Φ 3 ∗ Φ 4 ∗ Φ 5 ∗ Φ 6 ∗ Φ 7 ∗ Φ 8) = iprop(Φ 0 ∗ (Φ 1 ∗ Φ 2 ∗ Φ 3 ∗ Φ 4) ∗ Φ 5 ∗ Φ 6 ∗ Φ 7 ∗ Φ 8)
  refine Entails.antisymm (show _ ⊢ (_ : sProp 𝕄) from ?_) (show _ ⊢ (_ : sProp 𝕄) from ?_)
  · iintro ⟨H0, H1, H2, H3, H4, H5, H6, H7, H8⟩
    isplitl [H0]; · iexact H0
    isplitl [H1 H2 H3 H4]
    · isplitl [H1]; · iexact H1
      isplitl [H2]; · iexact H2
      isplitl [H3]; · iexact H3
      iexact H4
    · isplitl [H5]; · iexact H5
      isplitl [H6]; · iexact H6
      isplitl [H7]; · iexact H7
      iexact H8
  · iintro ⟨H0, ⟨H1, H2, H3, H4⟩, H5, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The launch element -/

def ringCells : Finset (GSem nD τ sig) := Finset.univ.map ⟨kcell, kcell_injective⟩

/-- The one duty of round 0 of each cell. -/
abbrev tokOf (ck : Dev nD × Fin 9) : GSem nD τ sig × ℕ × Unit := (kcell ck, 0, ())
theorem tokOf_injective : Function.Injective (tokOf : Dev nD × Fin 9 → GSem nD τ sig × ℕ × Unit) :=
  fun _ _ h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- The duty tokens of device `c`'s own nine cells, as minted. -/
def toks (c : Dev nD) : sProp 𝕄 := bigSep Finset.univ fun k : Fin 9 => dutyTok ER (kcell (c, k)) 0 ()

/-- What the launch element deals device `c`. -/
def G (c : Dev nD) : sProp 𝕄 :=
  iprop((bigSep Finset.univ fun k : Fin 9 => roundState ER (ringRd m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## From counters at zero to invariants, device by device -/

omit [FloatOps F] in
/-- The kernel's own semaphores are the eight send and receive ones; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
omit [FloatOps F] in
/-- the barrier semaphore is the one semaphore of a core that no scope allocates. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨⟨H1, H2, H3, H4, H5, H6, H7, H8⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## What all devices share, and what changes hands -/

/-- Every cell's invariant at its name, and that round 0 of every cell is reached. -/
def records (K : Dev nD × Fin 9 → ℕ) : sProp 𝕄 :=
  iprop((bigSep Finset.univ fun ck : Dev nD × Fin 9 => cellInv ER (ringRd m) (K ck) (kcell ck))
    ∗ bigSep Finset.univ fun ck : Dev nD × Fin 9 => reached ER (kcell ck) 0)

instance records_persistent (K : Dev nD × Fin 9 → ℕ) : BI.Persistent (records m K) := by unfold records; infer_instance

theorem inv_of_all (K : Dev nD × Fin 9 → ℕ) (ck : Dev nD × Fin 9) :
    (bigSep Finset.univ fun ck : Dev nD × Fin 9 => (cellInv ER (ringRd m) (K ck) (kcell ck) : sProp 𝕄)) ⊢ cellInv ER (ringRd m) (K ck) (kcell ck) :=
  bigSep_elim (Finset.mem_univ ck)
omit [FloatOps F] in
theorem reached_of_all (ck : Dev nD × Fin 9) :
    (bigSep Finset.univ fun ck : Dev nD × Fin 9 => (reached ER (kcell ck) 0 : sProp 𝕄)) ⊢ reached ER (kcell ck) 0 :=
  bigSep_elim (Finset.mem_univ ck)

theorem inv_at (K : Dev nD × Fin 9 → ℕ) (ck : Dev nD × Fin 9) :
    records m K ⊢ cellInv ER (ringRd m) (K ck) (kcell ck) := by
  unfold records; iintro ⟨#HI, -⟩
  iapply (inv_of_all m K ck); iexact HI
theorem reached_at (K : Dev nD × Fin 9 → ℕ) (ck : Dev nD × Fin 9) :
    records m K ⊢ reached ER (kcell ck) 0 := by
  unfold records; iintro ⟨-, #HR⟩
  iapply (reached_of_all (F := F) ck); iexact HR

theorem inv_bar (K : Dev nD × Fin 9 → ℕ) (c : Dev nD) : records m K ⊢ cellInv ER (ringRd m) (K (c, 0)) (barCell c) := inv_at m K (c, 0)
theorem inv_send (K : Dev nD × Fin 9 → ℕ) (c : Dev nD) (k : Fin 4) : records m K ⊢ cellInv ER (ringRd m) (K (c, sIdx k)) (sendCell c k) := by
  have h := inv_at m K (c, sIdx k); rw [kcell_send] at h; exact h
theorem inv_recv (K : Dev nD × Fin 9 → ℕ) (c : Dev nD) (k : Fin 4) : records m K ⊢ cellInv ER (ringRd m) (K (c, rIdx k)) (recvCell c k) := by
  have h := inv_at m K (c, rIdx k); rw [kcell_recv] at h; exact h
theorem reached_bar (K : Dev nD × Fin 9 → ℕ) (c : Dev nD) : records m K ⊢ reached ER (barCell c) 0 := reached_at m K (c, 0)
theorem reached_send (K : Dev nD × Fin 9 → ℕ) (c : Dev nD) (k : Fin 4) : records m K ⊢ reached ER (sendCell c k) 0 := by
  have h := reached_at m K (c, sIdx k); rw [kcell_send] at h; exact h
theorem reached_recv (K : Dev nD × Fin 9 → ℕ) (c : Dev nD) (k : Fin 4) : records m K ⊢ reached ER (recvCell c k) 0 := by
  have h := reached_at m K (c, rIdx k); rw [kcell_recv] at h; exact h

/-- The tokens of the duties device `c` pays: its partner's barrier duty and receive duties, its own send duties. -/
def payToks (c : Dev nD) : sProp 𝕄 :=
  iprop(dutyTok ER (barCell (pr c)) 0 ()
    ∗ (bigSep Finset.univ fun k : Fin 4 => dutyTok ER (recvCell (pr c) k) 0 ())
    ∗ (bigSep Finset.univ fun k : Fin 4 => dutyTok ER (sendCell c k) 0 ()))
/-- What stays with device `c`: its positions, and those tokens. -/
def linear (c : Dev nD) : sProp 𝕄 :=
  iprop((atPos ER (barCell c) 0 ∅ 0 ∗ (bigSep Finset.univ fun k : Fin 4 => atPos ER (sendCell c k) 0 ∅ 0)
      ∗ (bigSep Finset.univ fun k : Fin 4 => atPos ER (recvCell c k) 0 ∅ 0)) ∗ payToks c)

theorem ghost_intro (K : Dev nD × Fin 9 → ℕ) (c : Dev nD) : iprop(records m K ∗ linear c) ⊢ G' m c := by
  unfold linear payToks G' ghost invs
  iintro ⟨#HR, ⟨HaB, HaS, HaV⟩, HtB, HtV, HtS⟩
  iexists K
  isplitr
  · isplitr; · iapply (inv_bar m K c); iexact HR
    isplitr; · iapply (bigSep_intro_persistent (R := records m K) fun k _ => inv_send m K c k); iexact HR
    isplitr; · iapply (bigSep_intro_persistent (R := records m K) fun k _ => inv_recv m K c k); iexact HR
    isplitr; · iapply (inv_bar m K (pr c)); iexact HR
    iapply (bigSep_intro_persistent (R := records m K) fun k _ => inv_recv m K (pr c) k); iexact HR
  isplitl [HaB]; · iexact HaB
  isplitl [HaS]; · iexact HaS
  isplitl [HaV]; · iexact HaV
  isplitr; · iapply (reached_bar m K (pr c)); iexact HR
  isplitr; · iapply (bigSep_intro_persistent (R := records m K) fun k _ => reached_recv m K (pr c) k); iexact HR
  isplitr; · iapply (bigSep_intro_persistent (R := records m K) fun k _ => reached_send m K c k); iexact HR
  isplitl [HtB]; · iexact HtB
  isplitl [HtV]; · iexact HtV
  iexact HtS

omit [FloatOps F] in
/-- A device's nine tokens: its barrier's, its send cells', its receive cells'. -/
theorem toks_eq (c : Dev nD) : (toks c : sProp 𝕄)
    = iprop(dutyTok ER (barCell c) 0 () ∗ (bigSep Finset.univ fun k : Fin 4 => dutyTok ER (sendCell c k) 0 ())
        ∗ (bigSep Finset.univ fun k : Fin 4 => dutyTok ER (recvCell c k) 0 ())) := by
  unfold toks; rw [bigSep_nine]; simp only [kcell_send, kcell_recv]

omit [FloatOps F] in
/-- The tokens dealt around: the barrier token and the receive tokens cross to the partner, the send tokens stay. -/
theorem toks_around : (bigSep Finset.univ fun c : Dev nD => (toks c : sProp 𝕄)) ⊢ bigSep Finset.univ fun c : Dev nD => payToks c := by
  unfold payToks
  rw [bigSep_congr (s := Finset.univ) fun (c : Dev nD) _ => toks_eq (F := F) c, bigSep_sep', bigSep_sep', bigSep_sep', bigSep_sep',
    bigSep_univ_equiv swapE (fun c : Dev nD => (dutyTok ER (barCell c) 0 () : sProp 𝕄)),
    bigSep_univ_equiv swapE (fun c : Dev nD => (bigSep Finset.univ fun k : Fin 4 => dutyTok ER (recvCell c k) 0 () : sProp 𝕄))]
  iintro ⟨H1, H2, H3⟩
  isplitl [H1]; · iexact H1
  isplitl [H3]; · iexact H3
  iexact H2

omit [FloatOps F] in
/-- A device's nine positions likewise. -/
theorem pos_eq (c : Dev nD) : (bigSep Finset.univ fun k : Fin 9 => (atPos ER (kcell (c, k)) 0 ∅ 0 : sProp 𝕄))
    = iprop(atPos ER (barCell c) 0 ∅ 0 ∗ (bigSep Finset.univ fun k : Fin 4 => atPos ER (sendCell c k) 0 ∅ 0)
        ∗ (bigSep Finset.univ fun k : Fin 4 => atPos ER (recvCell c k) 0 ∅ 0)) := by
  rw [bigSep_nine]; simp only [kcell_send, kcell_recv]

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (ringRd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear; rw [pos_eq])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem O₀_eq : (O₀ : Dev nD → CellTallies nD τ sig Unit)
    = fun d => Rk d 3 + Rk d 2 + Rk d 1 + Rk d 0 + tallyAt (barCell (pr d)) () 1 := rfl

omit [FloatOps F] in
/-- Every device owes its partner alone: a device is dealt the credit of one barrier unit and of four chunks. -/
theorem creds (c : Dev nD) :
    (Pipeline.launchCred O₀ c : sProp 𝕄)
      ⊢ iprop(cred (tallyAt (barCell c) () 1) ∗ bigSep Finset.univ fun k : Fin 4 => cred (tallyAt (recvCell c k) () N)) := by
  rw [O₀_eq, Pipeline.launchCred_add, Pipeline.launchCred_add, Pipeline.launchCred_add, Pipeline.launchCred_add, bigSep_fin4]
  iintro ⟨⟨⟨⟨H3, H2⟩, H1⟩, H0⟩, HB⟩
  isplitl [HB]; · iapply (Pipeline.launchCred_tallyAt (.reg barS) pr pr pr_pr pr_pr () 1 c); iexact HB
  isplitl [H0]; · iapply (Pipeline.launchCred_tallyAt (.dma (recvS 0)) pr pr pr_pr pr_pr () N c); iexact H0
  isplitl [H1]; · iapply (Pipeline.launchCred_tallyAt (.dma (recvS 1)) pr pr pr_pr pr_pr () N c); iexact H1
  isplitl [H2]; · iapply (Pipeline.launchCred_tallyAt (.dma (recvS 2)) pr pr pr_pr pr_pr () N c); iexact H2
  iapply (Pipeline.launchCred_tallyAt (.dma (recvS 3)) pr pr pr_pr pr_pr () N c); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  rw [bigSep_fin4, bigSep_fin4]
  iintro ⟨⟨S0, S1, S2, S3⟩, R0, R1, R2, R3⟩
  isplitr; · iempintro
  isplitl
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  · iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- Each window's array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- Every weakly fair execution of the eight devices terminates without fault, each window's array at `finalA`. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0)
    (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m c (0 : Fin 2) = m ((c : Thread nD τ).loc main_arg0) :=
  (dats (F := F) m 0 c).arrAt_in (0 : Fin 2) rfl _

/-- The result array after the run is the gathered array. -/
theorem finalA_out (c : Dev nD) : finalA m c (1 : Fin 2) = outAt m c := by
  have h := (dats (F := F) m 0 c).arrAt_succ (1 : Fin 2) t₀
  rw [flush0_1 t₀, if_pos rfl] at h
  refine (show finalA m c (1 : Fin 2) = (dats m 0 c).arrAt (1 : Fin 2) (t₀.val + 1) from rfl).trans (h.trans ?_)
  exact Memref.write_access_unit_zero_univ (Elt F) main_v1 (funext fun a => Nat.zero_mul _) _ _ _

/-- The run with its strongest post: every device's result is the gathered array, its argument unchanged. -/
theorem run_post : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun r h c => ⟨(h c (1 : Fin 2)).trans (finalA_out m c), (h c (0 : Fin 2)).trans (finalA_x m c)⟩) (run_main m ρ)

/-- info: 'Cert.KernelIdeal.AG.glob' depends on axioms: [propext, Classical.choice, Quot.sound] -/
#guard_msgs in #print axioms glob

/-- info: 'Cert.KernelIdeal.AG.finalA_out' depends on axioms: [propext, Classical.choice, Quot.sound] -/
#guard_msgs in #print axioms finalA_out

/-- info: 'Cert.KernelIdeal.AG.run_post' depends on axioms: [propext, Classical.choice, Quot.sound] -/
#guard_msgs in #print axioms run_post

end Cert.KernelIdeal.AG

end
-- ==== Proof.AwCells.lean ====
/-
  Eight devices in four pairs: a device and its partner differ in the last mesh coordinate only. Each device holds
  one half (1024 rows) of a 2048 x 512 array, converts it to the narrower float format into its own half of a
  2048-row result buffer, four chunks of 256 rows at a time, and copies each chunk into the same rows of its
  partner's result buffer. After the exchange both result buffers of a pair hold the same 2048 rows.

  This module names the pieces: the partner map (an involution without fixed point), the semaphore cells (one
  barrier cell, four send and four receive cells a device), the eight chunks that tile the result buffer, the
  gathered contents `outAt` every chunk ends at, and the facts about chunks as sets of indices (which rows a chunk
  has, that chunks of different position are disjoint, that the eight of them cover the buffer).
-/
import proofs.«900669_g7700000000000670_dist_ag_v7x_xyz2x2x2_z_m1024_n512_bf16_1_alg».proof.Proof.Gen.Kernel
import proofs.«900669_g7700000000000670_dist_ag_v7x_xyz2x2x2_z_m1024_n512_bf16_1_alg».proof.Proof.Gen.Kernel.Skeleton
import proofs.«900669_g7700000000000670_dist_ag_v7x_xyz2x2x2_z_m1024_n512_bf16_1_alg».proof.Proof.Gen.Kernel.Launch
import Idealize.ShloMosaic.Lib.Pipeline.Launch
import Idealize.ShloMosaic.Lib.Pipeline.Kit
import Idealize.ShloMosaic.Lib.ValueIdx
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside one for the exchange's cells (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner -/

/-- The device with the same first two mesh coordinates and the other last one: `c` with its lowest bit flipped. -/
def pr (c : Dev nD) : Dev nD :=
  ⟨(4 * (c.val / 4) + 2 * ((c.val / 2) % 2) + 1) - (c.val % 2), by have h : c.val < 8 := c.isLt; show _ < 8; omega⟩

theorem pr_pr (c : Dev nD) : pr (pr c) = c := by revert c; decide
theorem pr_ne (c : Dev nD) : pr c ≠ c := by revert c; decide
/-- The partner holds the other half. -/
theorem pr_half (c : Dev nD) : (pr c).val % 2 = 1 - c.val % 2 := by revert c; decide
theorem half_lt (c : Dev nD) : c.val % 2 < 2 := Nat.mod_lt _ (by decide)

/-- Every device-id chain of the kernel (the signal's and the four copies') names the partner. -/
theorem dev1_eq (c : Dev nD) : (⟨k0_dev1 c, k0_dev1_lt c⟩ : Dev nD) = pr c := Fin.ext (k0_dev1_eq c)
theorem dev2_eq (c : Dev nD) : (⟨k0_dev2 c, k0_dev2_lt c⟩ : Dev nD) = pr c := Fin.ext (k0_dev2_eq c)
theorem dev3_eq (c : Dev nD) : (⟨k0_dev3 c, k0_dev3_lt c⟩ : Dev nD) = pr c := Fin.ext (k0_dev3_eq c)
theorem dev4_eq (c : Dev nD) : (⟨k0_dev4 c, k0_dev4_lt c⟩ : Dev nD) = pr c := Fin.ext (k0_dev4_eq c)
theorem dev5_eq (c : Dev nD) : (⟨k0_dev5 c, k0_dev5_lt c⟩ : Dev nD) = pr c := Fin.ext (k0_dev5_eq c)

def swapE : Dev nD ≃ Dev nD := ⟨pr, pr, pr_pr, pr_pr⟩

/-! ## The buffers, the chunks and the cells -/

abbrev xM : Memref sig .tc .vmem S1024x512 .f32 := Memref.whole cc0_stg0_0
abbrev oM : Memref sig .tc .vmem S2048x512 .bf16 := Memref.whole cc0_stg1_0

/-- Chunk `k`'s row offset inside a half, as the word the kernel adds. -/
abbrev kw (k : Fin 4) : BitVec 32 := BitVec.ofNat 32 (256 * k.val)

/-- Rows `1024 (d mod 2) + 256 k` up to 256 further of the result buffer: chunk `k` of the half device `d` fills. -/
abbrev chunkR (d : Dev nD) (k : Fin 4) : Rect S2048x512 :=
  Rect.unit (s := S2048x512) (k0_off2 d (kw k)) S256x512.size (k0_off2_inb d k)
abbrev chunkM (d : Dev nD) (k : Fin 4) : Memref sig .tc .vmem S256x512 .bf16 := oM.slice (chunkR d k) (fun _ => rfl)

/-- The runtime's barrier semaphore of collective id 0; the four send and the four receive DMA semaphores. -/
abbrev barS : Sem sig := (SemArray.scalar (sig.barrier 0 rfl) : Sems sig S_).sem
abbrev sendS : Fin 4 → DmaSem sig
  | 0 => ((cc0_scratch0.slice (Rect.unit (s := S4) ![0] S1.size inb_S4_S1_0)).squeeze S_ squeezes_S1_S_).sem
  | 1 => ((cc0_scratch0.slice (Rect.unit (s := S4) ![1] S1.size inb_S4_S1_1)).squeeze S_ squeezes_S1_S_).sem
  | 2 => ((cc0_scratch0.slice (Rect.unit (s := S4) ![2] S1.size inb_S4_S1_2)).squeeze S_ squeezes_S1_S_).sem
  | 3 => ((cc0_scratch0.slice (Rect.unit (s := S4) ![3] S1.size inb_S4_S1_3)).squeeze S_ squeezes_S1_S_).sem
abbrev recvS : Fin 4 → DmaSem sig
  | 0 => ((cc0_scratch1.slice (Rect.unit (s := S4) ![0] S1.size inb_S4_S1_0)).squeeze S_ squeezes_S1_S_).sem
  | 1 => ((cc0_scratch1.slice (Rect.unit (s := S4) ![1] S1.size inb_S4_S1_1)).squeeze S_ squeezes_S1_S_).sem
  | 2 => ((cc0_scratch1.slice (Rect.unit (s := S4) ![2] S1.size inb_S4_S1_2)).squeeze S_ squeezes_S1_S_).sem
  | 3 => ((cc0_scratch1.slice (Rect.unit (s := S4) ![3] S1.size inb_S4_S1_3)).squeeze S_ squeezes_S1_S_).sem

theorem sendS_val (k : Fin 4) : (sendS k).val = 2 + k.val := by fin_cases k <;> rfl
theorem recvS_val (k : Fin 4) : (recvS k).val = 6 + k.val := by fin_cases k <;> rfl

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- What one chunk's copy credits each of its two cells. -/
abbrev N : ℕ := (chunkM (0 : Dev nD) (0 : Fin 4)).view.dmaCredit
theorem N_pos : 0 < N := View.dmaCredit_pos _ (by decide)

end Cert.Kernel.AG

end
-- ==== Proof.AwChunks.lean ====
/-
  The result buffer as eight chunks of 256 rows, and what they hold.

  Chunk `k` of the half device `d` fills is rows `1024 (d mod 2) + 256 k` to 256 further. Two chunks with different
  first rows share no index, and the four chunks of a device with the four of its partner tile the 2048 rows. So
  owning the buffer whole is owning the eight chunks, and back.

  `outAt c` is what both buffers of `c`'s pair end at: row `r` of half `h` is row `r` of the block held by the
  device of the pair whose last coordinate is `h`, converted to the narrower format. It is the same function for a
  device and its partner. A chunk a device has just stored agrees with it on that chunk, and a copy of a chunk
  between the two buffers lands what the source held there.
-/
import proofs.«900669_g7700000000000670_dist_ag_v7x_xyz2x2x2_z_m1024_n512_bf16_1_alg».proof.Proof.AwCells

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Chunks as sets of indices -/

/-- Which rows chunk `k` of device `d`'s half has (every column). -/
theorem mem_chunk (d : Dev nD) (k : Fin 4) (i : S2048x512.Idx) :
    i ∈ (chunkR d k).set ↔
      1024 * (d.val % 2) + 256 * k.val ≤ (i 0).val ∧ (i 0).val < 1024 * (d.val % 2) + 256 * k.val + 256 := by
  rw [Rect.mem_set_unit, k0_off2_eq d k]
  constructor
  · intro h
    have h0 := h 0
    exact ⟨h0.1, h0.2⟩
  · intro h a
    match a with
    | ⟨0, _⟩ => exact ⟨h.1, h.2⟩
    | ⟨1, _⟩ => exact ⟨Nat.zero_le _, by have h1 : (i 1).val < 512 := (i 1).isLt; show (i 1).val < 0 + 512; omega⟩

theorem cset_eq (d : Dev nD) (k : Fin 4) : (chunkM d k).view.set = (chunkR d k).set :=
  View.set_slice_whole cc0_stg1_0 (chunkR d k)

/-- Chunks with different first rows share no index. -/
theorem chunk_disjoint (d d' : Dev nD) (k k' : Fin 4)
    (h : 1024 * (d.val % 2) + 256 * k.val ≠ 1024 * (d'.val % 2) + 256 * k'.val) :
    Disjoint (chunkR d k).set (chunkR d' k').set := by
  rw [Finset.disjoint_left]
  intro i hi hi'
  rw [mem_chunk] at hi hi'
  have h1 := half_lt d; have h2 := half_lt d'; have h3 := k.isLt; have h4 := k'.isLt
  omega

/-- The device itself (`true`) or its partner (`false`). -/
abbrev side (c : Dev nD) (b : Bool) : Dev nD := cond b c (pr c)

def chunkSet (c : Dev nD) (bk : Bool × Fin 4) : Finset S2048x512.Idx := (chunkR (side c bk.1) bk.2).set

theorem first_row_inj (c : Dev nD) (bk bk' : Bool × Fin 4) (h : bk ≠ bk') :
    1024 * ((side c bk.1).val % 2) + 256 * bk.2.val ≠ 1024 * ((side c bk'.1).val % 2) + 256 * bk'.2.val := by
  obtain ⟨b, k⟩ := bk; obtain ⟨b', k'⟩ := bk'
  have hp := pr_half c; have h1 := half_lt c; have h3 := k.isLt; have h4 := k'.isLt
  intro he
  apply h
  cases b <;> cases b' <;> simp only [side, cond_true, cond_false] at he <;>
    first
    | (have : k = k' := Fin.ext (by omega); subst this; rfl)
    | (exfalso; omega)

/-- The eight chunks tile the buffer. -/
theorem univ_eq_chunks (c : Dev nD) : (Finset.univ : Finset S2048x512.Idx) = Finset.univ.biUnion (chunkSet c) := by
  ext i
  simp only [Finset.mem_univ, true_iff, Finset.mem_biUnion, true_and]
  have hi : (i 0).val < 2048 := (i 0).isLt
  have hp := pr_half c; have h1 := half_lt c
  by_cases hb : c.val % 2 = (i 0).val / 1024
  · refine ⟨(true, ⟨((i 0).val % 1024) / 256, by omega⟩), ?_⟩
    show i ∈ (chunkR c _).set
    rw [mem_chunk]; dsimp only; omega
  · refine ⟨(false, ⟨((i 0).val % 1024) / 256, by omega⟩), ?_⟩
    show i ∈ (chunkR (pr c) _).set
    rw [mem_chunk, hp]; dsimp only; omega

/-! ## Contents -/

/-- Device `c`'s block of the array, as its input buffer holds it throughout. -/
def xstg (c : Dev nD) : (cc0_stg0_0 : Ref sig .tc).ty.Contents (Elt F) :=
  (win0_0.blk (0 : Fin 1)).view.read (Elt F) (m ((c : Thread nD τ).loc main_arg0))

/-- The device of `c`'s pair whose block is half `h` of the gathered array. -/
def halfDev (c : Dev nD) (h : ℕ) : Dev nD := if c.val % 2 = h then c else pr c

theorem halfDev_pr' : ∀ (c : Dev nD) (h : Fin 2), halfDev (pr c) h.val = halfDev c h.val := by decide
theorem halfDev_pr (c : Dev nD) (h : ℕ) (hh : h < 2) : halfDev (pr c) h = halfDev c h := halfDev_pr' c ⟨h, hh⟩
theorem halfDev_self (c : Dev nD) : halfDev c (c.val % 2) = c := if_pos rfl

/-- Row `r mod 1024`, same column: where an index of the gathered array sits inside its half. -/
abbrev rowIn (i : S2048x512.Idx) : S1024x512.Idx :=
  ValueIdx.ix2 (⟨(i 0).val % 1024, Nat.mod_lt _ (by decide)⟩ : Fin 1024) (⟨(i 1).val, (i 1).isLt⟩ : Fin 512)

/-- The gathered array, converted: what every result buffer of `c`'s pair ends at. -/
def outAt (c : Dev nD) : (cc0_stg1_0 : Ref sig .tc).ty.Contents (Elt F) := fun i =>
  (truncf .bf16 (xstg m (halfDev c ((i 0).val / 1024)) : FVec F S1024x512 .f32) bitsLt_bf16_f32 : FVec F S1024x512 .bf16) (rowIn i)

/-- A device and its partner gather the same array. -/
theorem outAt_pr (c : Dev nD) : outAt m (pr c) = outAt m c := by
  funext i
  unfold outAt
  rw [halfDev_pr c _ (by have h : (i 0).val < 2048 := (i 0).isLt; omega)]

/-! ## Owning chunks -/

/-- Chunk `k` of device `d`'s half, in device `t`'s result buffer, holding `f` there. -/
def cPts (t d : Dev nD) (k : Fin 4) (f : Buf (Elt F) ((t : Thread nD τ).loc cc0_stg1_0)) : sProp 𝕄 :=
  (chunkM d k).view.loc (t : Thread nD τ) ↦[(chunkM d k).view.set]{fullShare} f

omit [FloatOps F] in
instance cPts_storable (t d : Dev nD) (k : Fin 4) (f) : BI.Storable (upEmb : UEmb _ 𝕄) (cPts (F := F) t d k f) := by
  unfold cPts; infer_instance

omit [FloatOps F] in
/-- Only the chunk's own entries matter. -/
theorem cPts_congr (t d : Dev nD) (k : Fin 4) (f g : Buf (Elt F) ((t : Thread nD τ).loc cc0_stg1_0))
    (h : ∀ i ∈ (chunkR d k).set, f i = g i) : cPts t d k f = cPts t d k g := by
  unfold cPts
  exact pointsTo_congr (fun i hi => h i ((cset_eq d k) ▸ hi))

/-- The four chunks of device `d`'s half, in device `t`'s buffer. -/
def four (t d : Dev nD) (f : Buf (Elt F) ((t : Thread nD τ).loc cc0_stg1_0)) : sProp 𝕄 :=
  iprop(cPts t d 0 f ∗ cPts t d 1 f ∗ cPts t d 2 f ∗ cPts t d 3 f)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_bool (Φ : Bool → sProp 𝕄) : bigSep Finset.univ Φ = iprop(Φ true ∗ Φ false) :=
  bigSep_univ_eq_bigSepL [true, false] (by decide) (by decide) Φ

omit [FloatOps F] in
/-- Owning the result buffer whole is owning its own four chunks and the partner's four. -/
theorem whole_eq_chunks (c : Dev nD) (f : Buf (Elt F) ((c : Thread nD τ).loc cc0_stg1_0)) :
    ((((c : Thread nD τ).loc cc0_stg1_0) ↦{fullShare} f) : sProp 𝕄) = iprop(four c c f ∗ four c (pr c) f) := by
  have e : (Finset.univ : Finset (Idx ((c : Thread nD τ).loc cc0_stg1_0))) = Finset.univ.biUnion (chunkSet c) := univ_eq_chunks c
  have h0 : ((((c : Thread nD τ).loc cc0_stg1_0) ↦{fullShare} f) : sProp 𝕄)
      = bigSep Finset.univ fun bk : Bool × Fin 4 => cPts c (side c bk.1) bk.2 f := by
    refine (congrArg (fun S => ((((c : Thread nD τ).loc cc0_stg1_0) ↦[S]{fullShare} f) : sProp 𝕄)) e).trans ?_
    rw [pointsTo_biUnion _ _ (fun t _ t' _ htt' => chunk_disjoint _ _ _ _ (first_row_inj c t t' htt'))]
    exact bigSep_congr fun bk _ => by unfold cPts chunkSet; rw [cset_eq]
  rw [h0, bigSep_univ_prod, bigSep_bool, bigSep_fin4, bigSep_fin4]
  rfl

/-! ## What a store and a landing leave in a chunk -/

theorem xR_inb (k : Fin 4) : ∀ a, (![256 * k.val, 0] : Fin 2 → Nat) a + S256x512.size a ≤ S1024x512.size a := by
  intro a; fin_cases k <;> fin_cases a <;> decide

/-- Rows `256 k` to 256 further of the input block: the rectangle the kernel loads for chunk `k`. -/
abbrev xR (k : Fin 4) : Rect S1024x512 := Rect.unit (s := S1024x512) ![256 * k.val, 0] S256x512.size (xR_inb k)

/-- The rectangle of the result buffer the kernel stores chunk `k` through (the chunk's own rows). -/
abbrev storeR (c : Dev nD) (k : Fin 4) : Rect S2048x512 :=
  Rect.unit (s := S2048x512) (k0_off1 c (kw k)) S256x512.size (k0_off1_inb c k)

theorem mem_storeR (d : Dev nD) (k : Fin 4) (i : S2048x512.Idx) :
    i ∈ (storeR d k).set ↔
      1024 * (d.val % 2) + 256 * k.val ≤ (i 0).val ∧ (i 0).val < 1024 * (d.val % 2) + 256 * k.val + 256 := by
  rw [Rect.mem_set_unit, k0_off1_eq d k]
  constructor
  · intro h
    have h0 := h 0
    exact ⟨h0.1, h0.2⟩
  · intro h a
    match a with
    | ⟨0, _⟩ => exact ⟨h.1, h.2⟩
    | ⟨1, _⟩ => exact ⟨Nat.zero_le _, by have h1 : (i 1).val < 512 := (i 1).isLt; show (i 1).val < 0 + 512; omega⟩

/-- The store's rectangle is the chunk. -/
theorem storeR_set (d : Dev nD) (k : Fin 4) : (storeR d k).set = (chunkR d k).set := by
  ext i; rw [mem_storeR, mem_chunk]

/-- A copy of a view onto itself (between two buffers of one type) lands the source's entries on the view. -/
theorem write_read_on_set {sg : RefSig} {κ : Kind} {sp : Space} {s : Shape} {e : EltTy} {Val : EltTy → Type}
    (v : View sg κ sp s e) (fd fs : v.ty.Contents Val) :
    ∀ i ∈ v.set, v.write Val fd (v.read Val fs) Finset.univ i = fs i := by
  intro i hi
  obtain ⟨y, -, rfl⟩ := Finset.mem_map.mp hi
  show v.write Val fd (v.read Val fs) Finset.univ (v.emb y) = fs (v.emb y)
  rw [View.write_emb_of_mem _ _ (Finset.mem_univ y), View.read_apply, cast_cast, cast_eq]

/-- What chunk `k` of `c`'s half holds in the partner's buffer once `c`'s copy of it has landed. -/
theorem landed_agrees (c : Dev nD) (k : Fin 4) (fd : Buf (Elt F) (((pr c : Dev nD) : Thread nD τ).loc cc0_stg1_0)) :
    ∀ i ∈ (chunkR c k).set,
      (chunkM c k).view.write (Elt F) fd ((chunkM c k).view.read (Elt F) (outAt m c)) Finset.univ i = outAt m (pr c) i := by
  intro i hi
  rw [outAt_pr]
  exact write_read_on_set (chunkM c k).view fd (outAt m c) i ((cset_eq c k) ▸ hi)

end Cert.Kernel.AG

end
-- ==== Proof.AwSched.lean ====
/-
  The exchange as a schedule of rounds, one round a cell, one duty a round.

  A device's barrier cell is paid one unit by its partner; with it the partner hands over the four chunks of the
  device's half IN THE PARTNER'S result buffer, at whatever they hold: the right to write them. Send cell `k` is paid
  by the device's own copy of chunk `k` once the source has been read, and gives the chunk back holding the gathered
  array's entries. Receive cell `k` is paid by the partner's copy of its chunk `k` once it has been written, and
  gives that chunk of the device's own buffer holding the gathered array's entries.

  At launch a device owes its partner the barrier unit and the four receive credits. It waits on its barrier while it
  still owes the receive credits, so barrier cells sit below receive cells; the pipeline's own staging cells sit below
  both. By the time it waits on its send and receive cells it owes nothing.
-/
import proofs.«900669_g7700000000000670_dist_ag_v7x_xyz2x2x2_z_m1024_n512_bf16_1_alg».proof.Proof.AwChunks

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- What the partner's signal hands `c`: the four chunks of `c`'s half in the partner's buffer, at any contents. -/
def barPay (c : Dev nD) : sProp 𝕄 :=
  iprop((∃ f, cPts (pr c) c 0 f) ∗ (∃ f, cPts (pr c) c 1 f) ∗ (∃ f, cPts (pr c) c 2 f) ∗ (∃ f, cPts (pr c) c 3 f))
/-- Its own chunk `k` back, holding the gathered array there. -/
def sendPay (c : Dev nD) (k : Fin 4) : sProp 𝕄 := cPts c c k (outAt m c)
/-- The partner's chunk `k` in its own buffer, holding the gathered array there. -/
def recvPay (c : Dev nD) (k : Fin 4) : sProp 𝕄 := cPts c (pr c) k (outAt m c)

/-- Which chunk a semaphore of the two arrays serves. -/
def chunkOf (q : DmaSem sig) : Fin 4 := ⟨(q.val + 2) % 4, Nat.mod_lt _ (by decide)⟩
theorem chunkOf_send (k : Fin 4) : chunkOf (sendS k) = k := by fin_cases k <;> rfl
theorem chunkOf_recv (k : Fin 4) : chunkOf (recvS k) = k := by fin_cases k <;> rfl

/-- The exchange's cells: the barrier semaphore and the eight of the two arrays (not the two staging semaphores). -/
def isCell : SemLoc sig → Bool
  | .reg s => decide (s = barS)
  | .dma q => decide (2 ≤ q.val)

def payOf (c : Dev nD) : SemLoc sig → sProp 𝕄
  | .reg _ => barPay c
  | .dma q => if q.val < 6 then sendPay m c (chunkOf q) else recvPay m c (chunkOf q)

/-! ## The schedule -/

def ringRd : Rounds.Schedule (GSem nD τ sig) Unit 𝕄 where
  duties g r := if r = 0 ∧ g.1.2 = .tc ∧ isCell g.2 = true then {()} else ∅
  unitless _ := False
  amount g _ _ := if g.2 = .reg barS then 1 else N
  payload g _ _ := payOf m g.1.1 g.2
  amount_pos g _ _ _ := by
    by_cases h : g.2 = .reg barS
    · rw [if_pos h]; exact Nat.one_pos
    · rw [if_neg h]; exact N_pos

instance ringRd_payload_storable (g : GSem nD τ sig) (r : ℕ) (d : Unit) :
    BI.Storable (upEmb : UEmb _ 𝕄) ((ringRd (F := F) m).payload g r d) := by
  show BI.Storable upEmb (payOf m g.1.1 g.2)
  unfold payOf
  split
  · unfold barPay; infer_instance
  · split
    · unfold sendPay; infer_instance
    · unfold recvPay; infer_instance

section Sched
variable (c : Dev nD) (k : Fin 4)

theorem send_ne_bar : (SemLoc.dma (sendS k) : SemLoc sig) ≠ .reg barS := fun h => by cases h
theorem recv_ne_bar : (SemLoc.dma (recvS k) : SemLoc sig) ≠ .reg barS := fun h => by cases h
theorem isCell_bar : isCell (.reg barS : SemLoc sig) = true := by simp [isCell]
theorem isCell_send : isCell (.dma (sendS k) : SemLoc sig) = true := by
  show decide (2 ≤ (sendS k).val) = true; rw [sendS_val]; exact decide_eq_true (by omega)
theorem isCell_recv : isCell (.dma (recvS k) : SemLoc sig) = true := by
  show decide (2 ≤ (recvS k).val) = true; rw [recvS_val]; exact decide_eq_true (by omega)

theorem duties_bar : (ringRd (F := F) m).duties (barCell c) 0 = {()} := by
  dsimp only [ringRd]; exact if_pos ⟨rfl, rfl, isCell_bar⟩
theorem duties_send : (ringRd (F := F) m).duties (sendCell c k) 0 = {()} := by
  dsimp only [ringRd]; exact if_pos ⟨rfl, rfl, isCell_send k⟩
theorem duties_recv : (ringRd (F := F) m).duties (recvCell c k) 0 = {()} := by
  dsimp only [ringRd]; exact if_pos ⟨rfl, rfl, isCell_recv k⟩
theorem duties_later (g : GSem nD τ sig) : ∀ r, 1 ≤ r → (ringRd (F := F) m).duties g r = ∅ :=
  fun r hr => by dsimp only [ringRd]; rw [if_neg fun h => by omega]

theorem amount_bar (d : Unit) : (ringRd (F := F) m).amount (barCell c) 0 d = 1 := by dsimp only [ringRd]; exact if_pos rfl
theorem amount_send (d : Unit) : (ringRd (F := F) m).amount (sendCell c k) 0 d = N := by dsimp only [ringRd]; exact if_neg (send_ne_bar k)
theorem amount_recv (d : Unit) : (ringRd (F := F) m).amount (recvCell c k) 0 d = N := by dsimp only [ringRd]; exact if_neg (recv_ne_bar k)

theorem expect_bar : (ringRd (F := F) m).expect (barCell c) 0 = 1 := by
  unfold Schedule.expect Schedule.amountOf; rw [duties_bar, Finset.sum_singleton, amount_bar]
theorem expect_send : (ringRd (F := F) m).expect (sendCell c k) 0 = N := by
  unfold Schedule.expect Schedule.amountOf; rw [duties_send, Finset.sum_singleton, amount_send]
theorem expect_recv : (ringRd (F := F) m).expect (recvCell c k) 0 = N := by
  unfold Schedule.expect Schedule.amountOf; rw [duties_recv, Finset.sum_singleton, amount_recv]

theorem payload_bar (d : Unit) : (ringRd (F := F) m).payload (barCell c) 0 d = barPay c := rfl
theorem payload_send (d : Unit) : (ringRd (F := F) m).payload (sendCell c k) 0 d = sendPay m c k := by
  show payOf m c (.dma (sendS k)) = _
  unfold payOf; dsimp only
  rw [if_pos (by rw [sendS_val]; omega), chunkOf_send]
theorem payload_recv (d : Unit) : (ringRd (F := F) m).payload (recvCell c k) 0 d = recvPay m c k := by
  show payOf m c (.dma (recvS k)) = _
  unfold payOf; dsimp only
  rw [if_neg (by rw [recvS_val]; omega), chunkOf_recv]

/-- The whole of a cell's one round, nothing of it taken yet, is its one payload. -/
theorem rest_bar : bigSep ((ringRd (F := F) m).duties (barCell c) 0 \ ∅) (fun d => (ringRd (F := F) m).payload (barCell c) 0 d) = barPay c := by
  rw [Finset.sdiff_empty, duties_bar, bigSep_singleton, payload_bar]
theorem rest_send : bigSep ((ringRd (F := F) m).duties (sendCell c k) 0 \ ∅) (fun d => (ringRd (F := F) m).payload (sendCell c k) 0 d) = sendPay m c k := by
  rw [Finset.sdiff_empty, duties_send, bigSep_singleton, payload_send]
theorem rest_recv : bigSep ((ringRd (F := F) m).duties (recvCell c k) 0 \ ∅) (fun d => (ringRd (F := F) m).payload (recvCell c k) 0 d) = recvPay m c k := by
  rw [Finset.sdiff_empty, duties_recv, bigSep_singleton, payload_recv]

end Sched

/-! ## What each device owes at launch; the levels -/

/-- The credit of its partner's receive cell `k`. -/
abbrev Rk (c : Dev nD) (k : Fin 4) : CellTallies nD τ sig Unit := tallyAt (recvCell (pr c) k) () N

/-- What a device still owes before its copy of chunk 0, 1, 2, 3 (each copy pays the last summand) and after them. -/
abbrev Os0 (c : Dev nD) : CellTallies nD τ sig Unit := Rk c 3 + Rk c 2 + Rk c 1 + Rk c 0
abbrev Os1 (c : Dev nD) : CellTallies nD τ sig Unit := Rk c 3 + Rk c 2 + Rk c 1
abbrev Os2 (c : Dev nD) : CellTallies nD τ sig Unit := Rk c 3 + Rk c 2
abbrev Os3 (c : Dev nD) : CellTallies nD τ sig Unit := Rk c 3
/-- At launch: the four receive credits and, paid first, the partner's barrier unit. -/
def O₀ (c : Dev nD) : CellTallies nD τ sig Unit := Os0 c + tallyAt (barCell (pr c)) () 1

def L (g : GSem nD τ sig) : Finset Unit := if g.1.2 = .tc then {()} else ∅
def isRecv : SemLoc sig → Bool
  | .reg _ => false
  | .dma q => decide (6 ≤ q.val)
/-- Barrier cells at 1, receive cells at 2, everything else (staging, send) at 0. -/
def lv (g : GSem nD τ sig) (_ : Unit) : ℕ := if g.2 = .reg barS then 1 else if isRecv g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 4) : lv (recvCell c k) () = 2 := by
  unfold lv; rw [if_neg (recv_ne_bar k), if_pos]
  show decide (6 ≤ (recvS k).val) = true; rw [recvS_val]; exact decide_eq_true (by omega)
theorem lv_low (c : Dev nD) (q : DmaSem sig) (hq : q.val < 6) : lv ((c : Thread nD τ), .dma q) () = 0 := by
  unfold lv; rw [if_neg (fun h => by cases h), if_neg]
  show ¬ decide (6 ≤ q.val) = true; exact fun h => absurd (of_decide_eq_true h) (by omega)

theorem Os0_pos {c : Dev nD} {g : GSem nD τ sig} {u : Unit} (h : 0 < Os0 c g u) : ∃ k, g = recvCell (pr c) k := by
  simp only [Os0, Rk, Pi.add_apply, Finsupp.add_apply, tallyAt_apply] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    g = barCell (pr c) ∨ ∃ k, g = recvCell (pr c) k := by
  unfold O₀ at h
  rw [Pi.add_apply, Finsupp.add_apply] at h
  by_cases hb : g = barCell (pr c)
  · exact .inl hb
  · rw [tallyAt_apply, if_neg (fun h' => hb h'.1), Nat.add_zero] at h
    exact .inr (Os0_pos h)

omit [FloatOps F] in
/-- The staging cells (and any cell at level 0) may be waited on whatever of its launch debt a device still owes. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | ⟨k, rfl⟩ <;> exact Finset.mem_singleton_self _)
      (fun p hp => by rw [Finset.mem_singleton.mp hp]; exact le_of_eq (lv_low c q hq))
      (fun g u hg => by
        rcases O₀_pos hg with rfl | ⟨k, rfl⟩
        · rw [lv_bar]; decide
        · rw [lv_recv]; decide)
  · rw [MayWait_zero]; iintro -; iempintro

omit [FloatOps F] in
/-- At its barrier wait a device owes its partner's receive credits only: receive cells, above its barrier cell. -/
theorem mayWait_bar (c : Dev nD) :
    (levAts L lv : sProp 𝕄) ⊢ MayWait (c : Thread nD τ) (.reg barS) () (Os0 c) :=
  MayOwe.of_cut (L := L) (lev := lv) 1 (fun p hp => by rw [Finset.mem_singleton.mp hp, L_tc]; exact Finset.mem_singleton_self _)
    (fun g u hg => by obtain ⟨k, rfl⟩ := Os0_pos hg; exact Finset.mem_singleton_self _)
    (fun p hp => by rw [Finset.mem_singleton.mp hp]; exact le_of_eq (lv_bar c))
    (fun g u hg => by obtain ⟨k, rfl⟩ := Os0_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The names the launch allocated the cells' invariants at: a device's barrier cell, its send cells, its receive cells. -/
abbrev sIdx (k : Fin 4) : Fin 9 := ⟨1 + k.val, by omega⟩
abbrev rIdx (k : Fin 4) : Fin 9 := ⟨5 + k.val, by omega⟩

/-- The cells' invariants device `c`'s body opens: its own nine, its partner's barrier cell (its signal) and its
    partner's four receive cells (its copies). -/
def invs (K : Dev nD × Fin 9 → ℕ) (c : Dev nD) : sProp 𝕄 :=
  iprop(cellInv ER (ringRd m) (K (c, 0)) (barCell c)
    ∗ (bigSep Finset.univ fun k : Fin 4 => cellInv ER (ringRd m) (K (c, sIdx k)) (sendCell c k))
    ∗ (bigSep Finset.univ fun k : Fin 4 => cellInv ER (ringRd m) (K (c, rIdx k)) (recvCell c k))
    ∗ cellInv ER (ringRd m) (K (pr c, 0)) (barCell (pr c))
    ∗ (bigSep Finset.univ fun k : Fin 4 => cellInv ER (ringRd m) (K (pr c, rIdx k)) (recvCell (pr c) k)))

instance invs_persistent (K : Dev nD × Fin 9 → ℕ) (c : Dev nD) : BI.Persistent (invs m K c) := by unfold invs; infer_instance

/-- The exchange's ghost state device `c` starts from: the invariants; its positions at round 0 of its nine cells; round
    0 reached of the cells it pays and of its own; the tokens of the nine duties it pays — its partner's barrier duty,
    its partner's four receive duties, its own four send duties. -/
def ghost (K : Dev nD × Fin 9 → ℕ) (c : Dev nD) : sProp 𝕄 :=
  iprop(invs m K c
    ∗ atPos ER (barCell c) 0 ∅ 0
    ∗ (bigSep Finset.univ fun k : Fin 4 => atPos ER (sendCell c k) 0 ∅ 0)
    ∗ (bigSep Finset.univ fun k : Fin 4 => atPos ER (recvCell c k) 0 ∅ 0)
    ∗ reached ER (barCell (pr c)) 0
    ∗ (bigSep Finset.univ fun k : Fin 4 => reached ER (recvCell (pr c) k) 0)
    ∗ (bigSep Finset.univ fun k : Fin 4 => reached ER (sendCell c k) 0)
    ∗ dutyTok ER (barCell (pr c)) 0 ()
    ∗ (bigSep Finset.univ fun k : Fin 4 => dutyTok ER (recvCell (pr c) k) 0 ())
    ∗ (bigSep Finset.univ fun k : Fin 4 => dutyTok ER (sendCell c k) 0 ()))

/-- What device `c`'s body starts from: that at some names, the credit tokens of its barrier's unit and of its four
    receive cells, and the level facts. -/
def start (c : Dev nD) : sProp 𝕄 :=
  iprop((∃ K, ghost m K c) ∗ cred (tallyAt (barCell c) () 1)
    ∗ (bigSep Finset.univ fun k : Fin 4 => cred (tallyAt (recvCell c k) () N)) ∗ levAts L lv)

def Φ₀ (c : Dev nD) : sProp 𝕄 := start m c
/-- After the point: the eight own cells at zero, closed (the barrier cell is the runtime's: nothing to hand back). -/
def Φ₁ (c : Dev nD) : sProp 𝕄 :=
  iprop((bigSep Finset.univ fun k : Fin 4 => semVal (sendCell c k) 0) ∗ (bigSep Finset.univ fun k : Fin 4 => semVal (recvCell c k) 0))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 9 → ℕ) (c : Dev nD) : sProp 𝕄 :=
  iprop((ghost m K c ∗ cred (tallyAt (barCell c) () 1)
      ∗ (bigSep Finset.univ fun k : Fin 4 => cred (tallyAt (recvCell c k) () N)) ∗ levAts L lv)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.Kernel.AG

end
-- ==== Proof.AwStored.lean ====
/-
  What a freshly stored chunk holds.

  For chunk `k` the kernel loads rows `256 k` to `256 k + 255` of its own block, converts every entry to the narrower
  format, and stores the result over rows `1024 h + 256 k ..` of its result buffer, `h` its own half. Entry
  `(1024 h + 256 k + y, x)` of the buffer is then the conversion of entry `(256 k + y, x)` of the block, which is what
  the gathered array has there: the index's half is `h`, held by the device itself, and its row inside the half is
  `256 k + y`.
-/
import proofs.«900669_g7700000000000670_dist_ag_v7x_xyz2x2x2_z_m1024_n512_bf16_1_alg».proof.Proof.AwChunks
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the two rectangles put a block index -/

omit [FloatOps F] in
/-- The store's rectangle puts block index `(r, x)` at row `1024 h + 256 k + r`, column `x` of the result buffer,
    `h` the device's half: a unit-stride rectangle adds its offsets, and the buffer is indexed by itself. -/
theorem store_emb_val (c : Dev nD) (k : Fin 4) (y : S256x512.Idx) :
    ((((oM : Memref sig .tc .vmem S2048x512 .bf16).access (storeR c k) : View sig .tc _ _ _).emb y) 0).val
        = 1024 * (c.val % 2) + 256 * k.val + (y 0).val
      ∧ ((((oM : Memref sig .tc .vmem S2048x512 .bf16).access (storeR c k) : View sig .tc _ _ _).emb y) 1).val = (y 1).val := by
  have e : ∀ a : Fin 2, ((((oM : Memref sig .tc .vmem S2048x512 .bf16).access (storeR c k) : View sig .tc _ _ _).emb y) a).val
      = (![1024 * (c.val % 2) + 256 * k.val, 0] : Fin 2 → Nat) a + 1 * (y a).val := by
    intro a
    rw [← k0_off1_eq c k]
    rfl
  constructor
  · rw [e 0]; show 1024 * (c.val % 2) + 256 * k.val + 1 * (y 0).val = _; omega
  · rw [e 1]; show 0 + 1 * (y 1).val = _; omega

omit [FloatOps F] in
/-- The load's rectangle puts block index `(r, x)` at row `256 k + r`, column `x` of the input block. -/
theorem load_idx_val (k : Fin 4) (y : S256x512.Idx) :
    (((xR k).toLoadRect.idx y) 0).val = 256 * k.val + (y 0).val ∧ (((xR k).toLoadRect.idx y) 1).val = (y 1).val := by
  constructor
  · show 256 * k.val + 1 * (y 0).val = _; omega
  · show 0 + 1 * (y 1).val = _; omega

/-! ## The stored value at a block index -/

/-- The value the kernel stores, at a block index: the conversion of the loaded entry at the same index. The
    reshaping between equal shapes moves nothing, and the conversion acts entry by entry. -/
theorem pay1_apply (v : Vec F S256x512 .f32) (y : S256x512.Idx) :
    k0_pay1 v y = FloatOps.truncf .bf16 bitsLt_bf16_f32 (v y) := by
  show FloatOps.truncf .bf16 bitsLt_bf16_f32 (shapeCast S256x512 v shapeCasts_S256x512_S256x512 y) = _
  rw [shapeCast_self]

/-! ## The chunk after the store -/

/-- Chunk `k` as the kernel has just stored it — the conversion of rows `256 k ..` of its own
    block — agrees with the gathered array on the chunk. -/
theorem stored_agrees (c : Dev nD) (k : Fin 4) (f : Buf (Elt F) ((c : Thread nD τ).loc cc0_stg1_0)) :
    ∀ i ∈ (chunkR c k).set,
      ((oM : Memref sig .tc .vmem S2048x512 .bf16).access (storeR c k) : View sig .tc _ _ _).write (Elt F) f
        (k0_pay1 ((xM : Memref sig .tc .vmem S1024x512 .f32).view.readAt (Elt F) (xR k).toLoadRect (xstg m c))) Finset.univ i
      = outAt m c i := by
  intro i hi
  rw [mem_chunk] at hi
  obtain ⟨hlo, hhi⟩ := hi
  have hc := half_lt c
  have hk : k.val < 4 := k.isLt
  have h0 : (i 0).val < 2048 := (i 0).isLt
  have h1 : (i 1).val < 512 := (i 1).isLt
  -- the index sits `r` rows below the chunk's first row; `(r, column)` is its place in the stored block
  let y : S256x512.Idx :=
    ValueIdx.ix2 (⟨(i 0).val - (1024 * (c.val % 2) + 256 * k.val), by omega⟩ : Fin 256) (⟨(i 1).val, h1⟩ : Fin 512)
  have hy0 : (y 0).val = (i 0).val - (1024 * (c.val % 2) + 256 * k.val) := rfl
  have hy1 : (y 1).val = (i 1).val := rfl
  have hyi : ((oM : Memref sig .tc .vmem S2048x512 .bf16).access (storeR c k) : View sig .tc _ _ _).emb y = i := by
    obtain ⟨e0, e1⟩ := store_emb_val c k y
    exact Shape.idx_ext₂ (by rw [e0, hy0]; omega) (by rw [e1, hy1])
  -- the buffer there holds the stored block's entry at `(r, column)`
  have hw := View.write_emb_of_mem
    (v := ((oM : Memref sig .tc .vmem S2048x512 .bf16).access (storeR c k) : View sig .tc _ _ _)) (Val := Elt F) f
    (k0_pay1 ((xM : Memref sig .tc .vmem S1024x512 .f32).view.readAt (Elt F) (xR k).toLoadRect (xstg m c)))
    (Finset.mem_univ y)
  rw [hyi] at hw
  rw [hw, cast_eq, pay1_apply]
  -- the index's half is the device's own, and the loaded entry is the one at the index's row inside that half
  have hdiv : (i 0).val / 1024 = c.val % 2 := by omega
  have hidx : (xR k).toLoadRect.idx y = rowIn i := by
    obtain ⟨e0, e1⟩ := load_idx_val k y
    exact Shape.idx_ext₂ (by rw [e0, hy0]; show _ = (i 0).val % 1024; omega) (by rw [e1, hy1])
  unfold outAt
  rw [hdiv, halfDev_self, ← hidx]
  rfl

end Cert.Kernel.AG

end
-- ==== Proof.AwBody.lean ====
/-
  One device's kernel body, stepped once at a symbolic device.

  The device owns its result buffer whole on entry. It cuts it into its own four chunks and the four of the other
  half. The other half it hands to its partner with the barrier signal: the partner may now write there. Waiting on its
  own barrier it receives the same from the partner: its half of the partner's buffer. Chunk by chunk it then stores the
  conversion of 256 rows of its block into its own half, which makes that chunk agree with the gathered array, and
  sends the chunk to the same rows of the partner's buffer, paying the partner's receive cell with the chunk as it
  lands and its own send cell with the source. The eight waits give back its own four chunks and bring the partner's
  four, every one agreeing with the gathered array; the eight own cells close at zero and the chunks join back to the
  whole buffer holding the gathered array.
-/
import proofs.«900669_g7700000000000670_dist_ag_v7x_xyz2x2x2_z_m1024_n512_bf16_1_alg».proof.Proof.AwSched
import proofs.«900669_g7700000000000670_dist_ag_v7x_xyz2x2x2_z_m1024_n512_bf16_1_alg».proof.Proof.AwStored

set_option Elab.async false

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 9 → ℕ)

theorem fetch_0 (t : Fin cfg0.N) : (cfg0.win (0 : Fin 2)).fetch t = true := by rw [fin_N t]; rfl

/-- The partner's barrier payload, as the device that pays it reads it: its own buffer's other half. -/
theorem payload_barP (c : Dev nD) (d : Unit) : (ringRd (F := F) m).payload (barCell (pr c)) 0 d
    = iprop((∃ f, cPts c (pr c) 0 f) ∗ (∃ f, cPts c (pr c) 1 f) ∗ (∃ f, cPts c (pr c) 2 f) ∗ (∃ f, cPts c (pr c) 3 f)) := by
  rw [payload_bar]; unfold barPay; rw [pr_pr]

omit [FloatOps F] in
/-- The four chunks of the other half of its own buffer are what a device pays its partner's barrier with. -/
theorem barPay_intro (c : Dev nD) (g : Buf (Elt F) ((c : Thread nD τ).loc cc0_stg1_0)) :
    iprop(cPts c (pr c) 0 g ∗ cPts c (pr c) 1 g ∗ cPts c (pr c) 2 g ∗ cPts c (pr c) 3 g) ⊢ (barPay (pr c) : sProp 𝕄) := by
  unfold barPay; rw [pr_pr]
  iintro ⟨H0, H1, H2, H3⟩
  isplitl [H0]; · iexists g; iexact H0
  isplitl [H1]; · iexists g; iexact H1
  isplitl [H2]; · iexists g; iexact H2
  iexists g; iexact H3

omit [FloatOps F] in
/-- The input buffer whole, read through its memref's view. -/
theorem xPts_eq (c : Dev nD) :
    ((((xM : Memref sig .tc .vmem S1024x512 .f32).view.loc (c : Thread nD τ)) ↦[(xM : Memref sig .tc .vmem S1024x512 .f32).view.set]{fullShare} xstg m c) : sProp 𝕄)
      = (((c : Thread nD τ).loc cc0_stg0_0) ↦{fullShare} xstg m c) := by
  rw [View.set_whole]

omit [FloatOps F] in
/-- The rectangle the kernel loads and stores chunk `k` through is the chunk. -/
theorem access_set_eq (c : Dev nD) (k : Fin 4) :
    ((oM : Memref sig .tc .vmem S2048x512 .bf16).access (storeR c k) : View sig .tc _ _ _).set = (chunkM c k).view.set :=
  (View.set_slice_whole cc0_stg1_0 (storeR c k)).trans ((storeR_set c k).trans (cset_eq c k).symm)

/-- A chunk as just stored holds the gathered array's entries. -/
theorem stored_chunk (c : Dev nD) (k : Fin 4) (g : Buf (Elt F) ((c : Thread nD τ).loc cc0_stg1_0))
    (pay : Vec F S256x512 .f32 → FVec F S256x512 .bf16) (hp : pay = k0_pay1) :
    (((chunkM c k).view.loc (c : Thread nD τ)) ↦[(chunkM c k).view.set]{fullShare}
        (((oM : Memref sig .tc .vmem S2048x512 .bf16).access (storeR c k) : View sig .tc _ _ _).write (Elt F) g
          (pay ((xM : Memref sig .tc .vmem S1024x512 .f32).view.readAt (Elt F) (xR k).toLoadRect (xstg m c))) Finset.univ) : sProp 𝕄)
      ⊢ cPts c c k (outAt m c) := by
  subst hp
  unfold cPts
  exact Entails.of_eq (pointsTo_congr (fun i hi => stored_agrees m c k g i ((cset_eq c k) ▸ hi)))

/-- The copy of chunk `k` to the partner `n = pr c`: the source, agreeing with the gathered array on the chunk, goes to the
    send cell; the same rows of the partner's buffer, at whatever they held, go to the partner's receive cell holding what
    was copied, which is the gathered array's entries there. The device stops owing that receive credit and gets its send
    cell's credit. -/
theorem wp_send_chunk (c n : Dev nD) (hn : n = pr c) (k : Fin 4)
    {hsc : (chunkM c k : Memref sig (Dev.tc n : Thread nD τ).2.kind .vmem S256x512 .bf16).view.ref.isScScratch = false}
    {hsrc : (chunkM c k : Memref sig .tc .vmem S256x512 .bf16).view.WordExact} {hdst : (chunkM c k : Memref sig .tc .vmem S256x512 .bf16).view.WordExact}
    {hsem : DmaTarget.Typed .vmem (.dma (recvS k)) (.remote (Dev.tc n : Thread nD τ) (chunkM c k : Memref sig .tc .vmem S256x512 .bf16) (.dma (sendS k)) hsc)}
    {α : Type} {Q : α → sProp 𝕄} {kont : PUnit → Prog (TpuEff nD τ sig (Elt F) Λ₀ .tc) α}
    (fd : Buf (Elt F) (((pr c : Dev nD) : Thread nD τ).loc cc0_stg1_0)) (O : CellTallies nD τ sig Unit) (W : Waits sig Unit) :
    iprop(cellInv ER (ringRd m) (K (c, sIdx k)) (sendCell c k) ∗ cellInv ER (ringRd m) (K (pr c, rIdx k)) (recvCell (pr c) k)
        ∗ cPts c c k (outAt m c) ∗ cPts (pr c) c k fd
        ∗ owes (c : Thread nD τ) (O + Rk c k) W
        ∗ dutyTok ER (sendCell c k) 0 () ∗ reached ER (sendCell c k) 0
        ∗ dutyTok ER (recvCell (pr c) k) 0 () ∗ reached ER (recvCell (pr c) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chunkM c k) (.remote (Dev.tc n : Thread nD τ) (chunkM c k) (.dma (sendS k)) hsc) (.dma (recvS k)) hsrc hdst hsem) kont) Q) := by
  subst hn
  unfold cPts
  exact Rounds.wp_send_pointsTo 𝒱₀ ER (ringRd m) (c : Thread nD τ) none (c' := (Dev.tc (pr c) : Thread nD τ))
    (src := (chunkM c k : Memref sig .tc .vmem S256x512 .bf16)) (dst := (chunkM c k : Memref sig .tc .vmem S256x512 .bf16)) (q := fullShare)
    (κ₁ := K (c, sIdx k)) (κ₂ := K (pr c, rIdx k))
    (r₁ := 0) (r₂ := 0) (d₁ := ()) (d₂ := ()) (fs := outAt m c) (fd := fd)
    (by rw [duties_send]; exact Finset.mem_singleton_self _) (by rw [duties_recv]; exact Finset.mem_singleton_self _)
    () () N rfl (amount_send m c k ()) (amount_recv m (pr c) k ()) O rfl (W := W)
    (by rw [payload_send]; unfold sendPay cPts; exact BI.Entails.refl _)
    (by rw [payload_recv]; unfold recvPay cPts; rw [pr_pr]
        exact Entails.of_eq (pointsTo_congr (fun i hi => landed_agrees m c k fd i ((cset_eq c k) ▸ hi))))

/-- What a finished wait on a send or a receive cell hands over: the cell's one payload. -/
theorem got_send (c : Dev nD) (k : Fin 4) :
    bigSep ((ringRd (F := F) m).duties (sendCell c k) 0) (fun d => (ringRd (F := F) m).payload (sendCell c k) 0 d) = cPts c c k (outAt m c) := by
  rw [duties_send, bigSep_singleton, payload_send]; rfl
theorem got_recv (c : Dev nD) (k : Fin 4) :
    bigSep ((ringRd (F := F) m).duties (recvCell c k) 0) (fun d => (ringRd (F := F) m).payload (recvCell c k) 0 d) = cPts c (pr c) k (outAt m c) := by
  rw [duties_recv, bigSep_singleton, payload_recv]; rfl

/-- The wait on send cell `k`, owing nothing: the device's own chunk `k` comes back holding the gathered array's entries. -/
theorem wp_wait_send (c : Dev nD) (k : Fin 4)
    {hs : (chunkM c k : Memref sig .tc .vmem S256x512 .bf16).view.WordExact} {hd : (chunkM c k : Memref sig .tc .vmem S256x512 .bf16).view.WordExact}
    {α : Type} {Q : α → sProp 𝕄} {kont : PUnit → Prog (TpuEff nD τ sig (Elt F) Λ₀ .tc) α} (W : Waits sig Unit) :
    iprop(cellInv ER (ringRd m) (K (c, sIdx k)) (sendCell c k) ∗ cred (tallyAt (sendCell c k) () N)
        ∗ owes (c : Thread nD τ) 0 W ∗ atPos ER (sendCell c k) 0 ∅ 0)
      ⊢ iprop(((owes (c : Thread nD τ) 0 (insert (SemLoc.dma (sendS k), ()) W) ∗ atPos ER (sendCell c k) 1 ∅ 0 ∗ cPts c c k (outAt m c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS k) (chunkM c k) (chunkM c k) hs hd) kont) Q) := by
  iintro ⟨#HI, Hc, HO, Hat⟩ Hk
  iapply (Rounds.wp_wait_rest_token 𝒱₀ ER (ringRd m) (c : Thread nD τ) none (κ := K (c, sIdx k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  iapply Hk
  isplitl [HO]; · iexact HO
  isplitl [Hat]; · iexact Hat
  unfold sendPay
  iexact Hp

/-- The wait on receive cell `k`, owing nothing: the partner's chunk `k` has landed, holding the gathered array's entries. -/
theorem wp_wait_recv (c : Dev nD) (k : Fin 4)
    {hs : (chunkM c k : Memref sig .tc .vmem S256x512 .bf16).view.WordExact} {hd : (chunkM c k : Memref sig .tc .vmem S256x512 .bf16).view.WordExact}
    {α : Type} {Q : α → sProp 𝕄} {kont : PUnit → Prog (TpuEff nD τ sig (Elt F) Λ₀ .tc) α} (W : Waits sig Unit) :
    iprop(cellInv ER (ringRd m) (K (c, rIdx k)) (recvCell c k) ∗ cred (tallyAt (recvCell c k) () N)
        ∗ owes (c : Thread nD τ) 0 W ∗ atPos ER (recvCell c k) 0 ∅ 0)
      ⊢ iprop(((owes (c : Thread nD τ) 0 (insert (SemLoc.dma (recvS k), ()) W) ∗ atPos ER (recvCell c k) 1 ∅ 0 ∗ cPts c (pr c) k (outAt m c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvS k) (chunkM c k) (chunkM c k) hs hd) kont) Q) := by
  iintro ⟨#HI, Hc, HO, Hat⟩ Hk
  iapply (Rounds.wp_wait_rest_token 𝒱₀ ER (ringRd m) (c : Thread nD τ) none (κ := K (c, rIdx k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c k)) $$ Hpay
  iapply Hk
  isplitl [HO]; · iexact HO
  isplitl [Hat]; · iexact Hat
  unfold recvPay
  iexact Hp

attribute [local sl_canon] dev1_eq dev2_eq dev3_eq dev4_eq dev5_eq
attribute [local sl_rounds] payload_barP
attribute [local sl_rounds] duties_bar duties_send duties_recv amount_bar amount_send amount_recv expect_bar expect_send expect_recv
  payload_bar payload_send payload_recv

set_option maxHeartbeats 1600000 in
/-- The body from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  unfold bodyPre ghost invs
  simp only [bigSep_fin4]
  iintro ⟨⟨⟨⟨⟨#HIbar, ⟨#HIs0, #HIs1, #HIs2, #HIs3⟩, ⟨#HIr0, #HIr1, #HIr2, #HIr3⟩, #HIbarP, ⟨#HIp0, #HIp1, #HIp2, #HIp3⟩⟩,
      HatB, ⟨HatS0, HatS1, HatS2, HatS3⟩, ⟨HatR0, HatR1, HatR2, HatR3⟩,
      #HrBP, ⟨#HrP0, #HrP1, #HrP2, #HrP3⟩, ⟨#HrS0, #HrS1, #HrS2, #HrS3⟩,
      HtBP, ⟨HtP0, HtP1, HtP2, HtP3⟩, ⟨HtS0, HtS1, HtS2, HtS3⟩⟩,
      HcB, ⟨HcR0, HcR1, HcR2, HcR3⟩, #Hlev⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  -- the result buffer as its eight chunks
  ihave H8 := (Entails.of_eq (whole_eq_chunks c g1)) $$ Hout
  unfold four
  icases H8 with ⟨⟨Hw0, Hw1, Hw2, Hw3⟩, ⟨Hq0, Hq1, Hq2, Hq3⟩⟩
  -- the other half, as the one thing the partner's barrier is paid with
  ihave Hpay := (barPay_intro (F := F) c g1) $$ [Hq0 Hq1 Hq2 Hq3]
  · isplitl [Hq0]; · iexact Hq0
    isplitl [Hq1]; · iexact Hq1
    isplitl [Hq2]; · iexact Hq2
    iexact Hq3
  ihave Hx' := (Entails.of_eq (xPts_eq (F := F) m c).symm) $$ Hx
  ihave #HmwB := (mayWait_bar (F := F) c) $$ Hlev
  have hsub0 := Finset.subset_of_eq (access_set_eq c 0)
  have hsub1 := Finset.subset_of_eq (access_set_eq c 1)
  have hsub2 := Finset.subset_of_eq (access_set_eq c 2)
  have hsub3 := Finset.subset_of_eq (access_set_eq c 3)
  have hst0 : ((Memref.whole cc0_stg1_0 : Memref sig .tc .vmem S2048x512 .bf16).access (Rect.unit (s := S2048x512) (k0_off1 c 0#32) S256x512.size (k0_off1_inb c 0)) : View sig .tc _ _ _).setOn Finset.univ ⊆ (chunkM c 0).view.set := hsub0
  have hst1 : ((Memref.whole cc0_stg1_0 : Memref sig .tc .vmem S2048x512 .bf16).access (Rect.unit (s := S2048x512) (k0_off1 c 256#32) S256x512.size (k0_off1_inb c 1)) : View sig .tc _ _ _).setOn Finset.univ ⊆ (chunkM c 1).view.set := hsub1
  have hst2 : ((Memref.whole cc0_stg1_0 : Memref sig .tc .vmem S2048x512 .bf16).access (Rect.unit (s := S2048x512) (k0_off1 c 512#32) S256x512.size (k0_off1_inb c 2)) : View sig .tc _ _ _).setOn Finset.univ ⊆ (chunkM c 2).view.set := hsub2
  have hst3 : ((Memref.whole cc0_stg1_0 : Memref sig .tc .vmem S2048x512 .bf16).access (Rect.unit (s := S2048x512) (k0_off1 c 768#32) S256x512.size (k0_off1_inb c 3)) : View sig .tc _ _ _).setOn Finset.univ ⊆ (chunkM c 3).view.set := hsub3
  unfold cPts
  sl_unfold [cc0_body]
  sl_exec_parts
  -- the partner's signal brought the four chunks of this device's half of the partner's buffer
  unfold barPay
  icases HatB_pay1 with ⟨⟨%f0, Hd0⟩, ⟨%f1, Hd1⟩, ⟨%f2, Hd2⟩, ⟨%f3, Hd3⟩⟩
  -- chunk 0: stored, it agrees with the gathered array; it goes to the same rows of the partner's buffer
  sl_unfold_run_names
  ihave Hw0 := (stored_chunk m c 0 g1 k0_pay1 rfl) $$ Hw0
  iapply (wp_send_chunk m K c _ (dev2_eq c) 0 f0 (Os1 c) _) $$ [Hw0 Hd0 HO HtS0 HtP0]
  · isplitr; · iexact HIs0
    isplitr; · iexact HIp0
    isplitl [Hw0]; · iexact Hw0
    isplitl [Hd0]; · iexact Hd0
    isplitl [HO]; · iexact HO
    isplitl [HtS0]; · iexact HtS0
    isplitr; · iexact HrS0
    isplitl [HtP0]; · iexact HtP0
    iexact HrP0
  iintro ⟨HcS0, HO⟩
  sl_exec_parts
  -- chunk 1
  sl_unfold_run_names
  ihave Hw1 := (stored_chunk m c 1 g1 k0_pay2 rfl) $$ Hw1
  iapply (wp_send_chunk m K c _ (dev3_eq c) 1 f1 (Os2 c) _) $$ [Hw1 Hd1 HO HtS1 HtP1]
  · isplitr; · iexact HIs1
    isplitr; · iexact HIp1
    isplitl [Hw1]; · iexact Hw1
    isplitl [Hd1]; · iexact Hd1
    isplitl [HO]; · iexact HO
    isplitl [HtS1]; · iexact HtS1
    isplitr; · iexact HrS1
    isplitl [HtP1]; · iexact HtP1
    iexact HrP1
  iintro ⟨HcS1, HO⟩
  sl_exec_parts
  -- chunk 2
  sl_unfold_run_names
  ihave Hw2 := (stored_chunk m c 2 g1 k0_pay3 rfl) $$ Hw2
  iapply (wp_send_chunk m K c _ (dev4_eq c) 2 f2 (Os3 c) _) $$ [Hw2 Hd2 HO HtS2 HtP2]
  · isplitr; · iexact HIs2
    isplitr; · iexact HIp2
    isplitl [Hw2]; · iexact Hw2
    isplitl [Hd2]; · iexact Hd2
    isplitl [HO]; · iexact HO
    isplitl [HtS2]; · iexact HtS2
    isplitr; · iexact HrS2
    isplitl [HtP2]; · iexact HtP2
    iexact HrP2
  iintro ⟨HcS2, HO⟩
  sl_exec_parts
  rw [show Os3 c = 0 + Rk c 3 from (zero_add _).symm]
  -- chunk 3
  sl_unfold_run_names
  ihave Hw3 := (stored_chunk m c 3 g1 k0_pay4 rfl) $$ Hw3
  iapply (wp_send_chunk m K c _ (dev5_eq c) 3 f3 (0) _) $$ [Hw3 Hd3 HO HtS3 HtP3]
  · isplitr; · iexact HIs3
    isplitr; · iexact HIp3
    isplitl [Hw3]; · iexact Hw3
    isplitl [Hd3]; · iexact Hd3
    isplitl [HO]; · iexact HO
    isplitl [HtS3]; · iexact HtS3
    isplitr; · iexact HrS3
    isplitl [HtP3]; · iexact HtP3
    iexact HrP3
  iintro ⟨HcS3, HO⟩
  -- the eight credits, set aside in the order of the waits
  ihave Hcr := (show (iprop(cred (tallyAt (sendCell c 0) () N) ∗ cred (tallyAt (recvCell c 0) () N) ∗ cred (tallyAt (sendCell c 1) () N) ∗ cred (tallyAt (recvCell c 1) () N) ∗ cred (tallyAt (sendCell c 2) () N) ∗ cred (tallyAt (recvCell c 2) () N) ∗ cred (tallyAt (sendCell c 3) () N) ∗ cred (tallyAt (recvCell c 3) () N) ∗ emp) : sProp 𝕄) ⊢ iprop(cred (tallyAt (sendCell c 0) () N) ∗ cred (tallyAt (recvCell c 0) () N) ∗ cred (tallyAt (sendCell c 1) () N) ∗ cred (tallyAt (recvCell c 1) () N) ∗ cred (tallyAt (sendCell c 2) () N) ∗ cred (tallyAt (recvCell c 2) () N) ∗ cred (tallyAt (sendCell c 3) () N) ∗ cred (tallyAt (recvCell c 3) () N) ∗ emp) from BI.Entails.refl _) $$ [HcS0 HcR0 HcS1 HcR1 HcS2 HcR2 HcS3 HcR3]
  · isplitl [HcS0]; · iexact HcS0
    isplitl [HcR0]; · iexact HcR0
    isplitl [HcS1]; · iexact HcS1
    isplitl [HcR1]; · iexact HcR1
    isplitl [HcS2]; · iexact HcS2
    isplitl [HcR2]; · iexact HcR2
    isplitl [HcS3]; · iexact HcS3
    isplitl [HcR3]; · iexact HcR3
    iempintro
  sl_exec
  -- the wait on its send cell 0
  icases Hcr with ⟨Hc, Hcr⟩
  iapply (wp_wait_send m K c 0 _) $$ [Hc HO HatS0]
  · isplitr; · iexact HIs0
    isplitl [Hc]; · iexact Hc
    isplitl [HO]; · iexact HO
    iexact HatS0
  iintro ⟨HO, HatS0, Hs0⟩
  sl_exec
  -- the wait on its receive cell 0
  icases Hcr with ⟨Hc, Hcr⟩
  iapply (wp_wait_recv m K c 0 _) $$ [Hc HO HatR0]
  · isplitr; · iexact HIr0
    isplitl [Hc]; · iexact Hc
    isplitl [HO]; · iexact HO
    iexact HatR0
  iintro ⟨HO, HatR0, Hr0⟩
  sl_exec
  -- the wait on its send cell 1
  icases Hcr with ⟨Hc, Hcr⟩
  iapply (wp_wait_send m K c 1 _) $$ [Hc HO HatS1]
  · isplitr; · iexact HIs1
    isplitl [Hc]; · iexact Hc
    isplitl [HO]; · iexact HO
    iexact HatS1
  iintro ⟨HO, HatS1, Hs1⟩
  sl_exec
  -- the wait on its receive cell 1
  icases Hcr with ⟨Hc, Hcr⟩
  iapply (wp_wait_recv m K c 1 _) $$ [Hc HO HatR1]
  · isplitr; · iexact HIr1
    isplitl [Hc]; · iexact Hc
    isplitl [HO]; · iexact HO
    iexact HatR1
  iintro ⟨HO, HatR1, Hr1⟩
  sl_exec
  -- the wait on its send cell 2
  icases Hcr with ⟨Hc, Hcr⟩
  iapply (wp_wait_send m K c 2 _) $$ [Hc HO HatS2]
  · isplitr; · iexact HIs2
    isplitl [Hc]; · iexact Hc
    isplitl [HO]; · iexact HO
    iexact HatS2
  iintro ⟨HO, HatS2, Hs2⟩
  sl_exec
  -- the wait on its receive cell 2
  icases Hcr with ⟨Hc, Hcr⟩
  iapply (wp_wait_recv m K c 2 _) $$ [Hc HO HatR2]
  · isplitr; · iexact HIr2
    isplitl [Hc]; · iexact Hc
    isplitl [HO]; · iexact HO
    iexact HatR2
  iintro ⟨HO, HatR2, Hr2⟩
  sl_exec
  -- the wait on its send cell 3
  icases Hcr with ⟨Hc, Hcr⟩
  iapply (wp_wait_send m K c 3 _) $$ [Hc HO HatS3]
  · isplitr; · iexact HIs3
    isplitl [Hc]; · iexact Hc
    isplitl [HO]; · iexact HO
    iexact HatS3
  iintro ⟨HO, HatS3, Hs3⟩
  sl_exec
  -- the wait on its receive cell 3
  icases Hcr with ⟨Hc, Hcr⟩
  iapply (wp_wait_recv m K c 3 _) $$ [Hc HO HatR3]
  · isplitr; · iexact HIr3
    isplitl [Hc]; · iexact Hc
    isplitl [HO]; · iexact HO
    iexact HatR3
  iintro ⟨HO, HatR3, Hr3⟩
  sl_exec
  -- the eight own cells close: their counters at zero are the device's again
  imod (Rounds.cell_close ER (ringRd m) (Set.mem_univ (K (c, sIdx 0))) (fun h => h) (R := 1) (duties_later m (sendCell c 0))) $$ [HatS0] with HzS0
  · isplitr; · iexact HIs0
    iexact HatS0
  imod (Rounds.cell_close ER (ringRd m) (Set.mem_univ (K (c, sIdx 1))) (fun h => h) (R := 1) (duties_later m (sendCell c 1))) $$ [HatS1] with HzS1
  · isplitr; · iexact HIs1
    iexact HatS1
  imod (Rounds.cell_close ER (ringRd m) (Set.mem_univ (K (c, sIdx 2))) (fun h => h) (R := 1) (duties_later m (sendCell c 2))) $$ [HatS2] with HzS2
  · isplitr; · iexact HIs2
    iexact HatS2
  imod (Rounds.cell_close ER (ringRd m) (Set.mem_univ (K (c, sIdx 3))) (fun h => h) (R := 1) (duties_later m (sendCell c 3))) $$ [HatS3] with HzS3
  · isplitr; · iexact HIs3
    iexact HatS3
  imod (Rounds.cell_close ER (ringRd m) (Set.mem_univ (K (c, rIdx 0))) (fun h => h) (R := 1) (duties_later m (recvCell c 0))) $$ [HatR0] with HzR0
  · isplitr; · iexact HIr0
    iexact HatR0
  imod (Rounds.cell_close ER (ringRd m) (Set.mem_univ (K (c, rIdx 1))) (fun h => h) (R := 1) (duties_later m (recvCell c 1))) $$ [HatR1] with HzR1
  · isplitr; · iexact HIr1
    iexact HatR1
  imod (Rounds.cell_close ER (ringRd m) (Set.mem_univ (K (c, rIdx 2))) (fun h => h) (R := 1) (duties_later m (recvCell c 2))) $$ [HatR2] with HzR2
  · isplitr; · iexact HIr2
    iexact HatR2
  imod (Rounds.cell_close ER (ringRd m) (Set.mem_univ (K (c, rIdx 3))) (fun h => h) (R := 1) (duties_later m (recvCell c 3))) $$ [HatR3] with HzR3
  · isplitr; · iexact HIr3
    iexact HatR3
  -- the eight chunks are the whole buffer again, holding the gathered array
  ihave Hout := (Entails.of_eq (whole_eq_chunks c (outAt m c)).symm) $$ [Hs0 Hs1 Hs2 Hs3 Hr0 Hr1 Hr2 Hr3]
  · unfold four
    isplitl [Hs0 Hs1 Hs2 Hs3]
    · isplitl [Hs0]; · iexact Hs0
      isplitl [Hs1]; · iexact Hs1
      isplitl [Hs2]; · iexact Hs2
      iexact Hs3
    · isplitl [Hr0]; · iexact Hr0
      isplitl [Hr1]; · iexact Hr1
      isplitl [Hr2]; · iexact Hr2
      iexact Hr3
  ihave Hx := (Entails.of_eq (xPts_eq (F := F) m c)) $$ Hx'
  rw [wp_ret]; imodintro
  iapply Hk
  unfold bodyPost Φ₁ Dat.owesAt Pipeline.owesWithin
  rw [show (dats m 0 c).owed t₀.succ = 0 from rfl]
  simp only [bigSep_fin4]
  isplitl [HzS0 HzS1 HzS2 HzS3 HzR0 HzR1 HzR2 HzR3]
  · isplitl [HzS0 HzS1 HzS2 HzS3]
    · isplitl [HzS0]; · iexact HzS0
      isplitl [HzS1]; · iexact HzS1
      isplitl [HzS2]; · iexact HzS2
      iexact HzS3
    · isplitl [HzR0]; · iexact HzR0
      isplitl [HzR1]; · iexact HzR1
      isplitl [HzR2]; · iexact HzR2
      iexact HzR3
  isplitl [HO]
  · iexists (insert (SemLoc.dma (recvS 3), ()) (insert (SemLoc.dma (sendS 3), ()) (insert (SemLoc.dma (recvS 2), ())
      (insert (SemLoc.dma (sendS 2), ()) (insert (SemLoc.dma (recvS 1), ()) (insert (SemLoc.dma (sendS 1), ())
      (insert (SemLoc.dma (recvS 0), ()) (insert (SemLoc.dma (sendS 0), ()) (insert (SemLoc.reg barS, ()) W)))))))))
    isplitr; · ipureintro; exact fun _ _ => Or.inl trivial
    iexact HO
  isplitl [Hx]
  · iexists _; isplitr; · (ipureintro; rfl)
    iexact Hx
  iexists _; isplitr; · (ipureintro; rfl)
  iexact Hout

end Body

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at its one point: the exchange's state at launch, what the device owes, and
    the two staging buffers whole. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m c)
  unfold bodyPre' Φ₀ start
  iintro ⟨⟨⟨%K, Hg⟩, Hrest⟩, Ho, Hx, Hout⟩
  iapply (sound_body m K c fun _ => bodyPost m c)
  unfold bodyPre
  isplitr []
  · isplitl [Hg Hrest]
    · isplitl [Hg]; · iexact Hg
      iexact Hrest
    isplitl [Ho]; · iexact Ho
    isplitl [Hx] <;> iassumption
  · iintro H; iexact H

end Cert.Kernel.AG

end
-- ==== Proof.AwLaunch.lean ====
/-
  The launch: from every device's body to a run of the whole mesh.

  Every device has nine cells: its barrier cell, four send cells and four receive cells. The launch element of the
  exchange's algebra holds, for each of the 72 cells, its round state at counter zero, that round 0 is reached, the
  owner's position and the token of the cell's one duty. Each device turns its nine counters at zero and the nine
  round states into nine invariants; the invariants' names and the reached facts are then shared by all, and the
  tokens change hands: a barrier token and the four receive tokens go to the partner, who pays those duties, the
  four send tokens stay. What a device is owed at launch is one barrier unit and four chunks' worth of receive
  credit, all by its partner.

  At the end the result window, being the whole array at its one block, holds exactly what the body left in its
  staging buffer: the gathered array.
-/
import proofs.«900669_g7700000000000670_dist_ag_v7x_xyz2x2x2_z_m1024_n512_bf16_1_alg».proof.Proof.AwBody
import proofs.«900669_g7700000000000670_dist_ag_v7x_xyz2x2x2_z_m1024_n512_bf16_1_alg».proof.Proof.Gen.Kernel.Points

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells by index -/

/-- The kernel's own eight semaphores: the four send ones, then the four receive ones. -/
abbrev osem : Fin 8 → SemLoc sig
  | 0 => .dma (sendS 0) | 1 => .dma (sendS 1) | 2 => .dma (sendS 2) | 3 => .dma (sendS 3)
  | 4 => .dma (recvS 0) | 5 => .dma (recvS 1) | 6 => .dma (recvS 2) | 7 => .dma (recvS 3)

/-- All nine of a device's cells: the barrier semaphore, the send ones, the receive ones. -/
abbrev csem : Fin 9 → SemLoc sig
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)

abbrev kcell (ck : Dev nD × Fin 9) : GSem nD τ sig := ((ck.1 : Thread nD τ), csem ck.2)

theorem csem_send (k : Fin 4) : csem (sIdx k) = .dma (sendS k) := by fin_cases k <;> rfl
theorem csem_recv (k : Fin 4) : csem (rIdx k) = .dma (recvS k) := by fin_cases k <;> rfl
theorem kcell_bar (c : Dev nD) : kcell (c, 0) = barCell c := rfl
theorem kcell_send (c : Dev nD) (k : Fin 4) : kcell (c, sIdx k) = sendCell c k := by fin_cases k <;> rfl
theorem kcell_recv (c : Dev nD) (k : Fin 4) : kcell (c, rIdx k) = recvCell c k := by fin_cases k <;> rfl

/-- A number for each semaphore: the barrier's 0, a DMA semaphore's own value. -/
def semNum : SemLoc sig → ℕ
  | .reg _ => 0
  | .dma q => q.val

theorem semNum_csem (j : Fin 9) : semNum (csem j) = if j.val = 0 then 0 else j.val + 1 := by fin_cases j <;> rfl

theorem csem_injective : Function.Injective csem := by
  intro j j' h
  have h' := congrArg semNum h
  rw [semNum_csem, semNum_csem] at h'
  apply Fin.ext
  split_ifs at h' <;> omega

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

theorem ownSemFacts : Pipeline.OwnSemFacts cfg0.spec osem := by decide

theorem share_eq (c : Dev nD) (w : Fin cfg0.W) : (dats m 0 c).share w = fullShare := by unfold Dat.share; split <;> rfl

omit [FloatOps F] in
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- Nine cells are the barrier cell, the four send cells and the four receive cells. -/
theorem bigSep_nine (Φ : Fin 9 → sProp 𝕄) :
    bigSep Finset.univ Φ
      = iprop(Φ 0 ∗ (bigSep Finset.univ fun k : Fin 4 => Φ (sIdx k)) ∗ (bigSep Finset.univ fun k : Fin 4 => Φ (rIdx k))) := by
  rw [bigSep_fin9, bigSep_fin4, bigSep_fin4]
  show iprop(Φ 0 ∗ Φ 1 ∗ Φ 2 ∗ Φ 3 ∗ Φ 4 ∗ Φ 5 ∗ Φ 6 ∗ Φ 7 ∗ Φ 8) = iprop(Φ 0 ∗ (Φ 1 ∗ Φ 2 ∗ Φ 3 ∗ Φ 4) ∗ Φ 5 ∗ Φ 6 ∗ Φ 7 ∗ Φ 8)
  refine Entails.antisymm (show _ ⊢ (_ : sProp 𝕄) from ?_) (show _ ⊢ (_ : sProp 𝕄) from ?_)
  · iintro ⟨H0, H1, H2, H3, H4, H5, H6, H7, H8⟩
    isplitl [H0]; · iexact H0
    isplitl [H1 H2 H3 H4]
    · isplitl [H1]; · iexact H1
      isplitl [H2]; · iexact H2
      isplitl [H3]; · iexact H3
      iexact H4
    · isplitl [H5]; · iexact H5
      isplitl [H6]; · iexact H6
      isplitl [H7]; · iexact H7
      iexact H8
  · iintro ⟨H0, ⟨H1, H2, H3, H4⟩, H5, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The launch element -/

def ringCells : Finset (GSem nD τ sig) := Finset.univ.map ⟨kcell, kcell_injective⟩

/-- The one duty of round 0 of each cell. -/
abbrev tokOf (ck : Dev nD × Fin 9) : GSem nD τ sig × ℕ × Unit := (kcell ck, 0, ())
theorem tokOf_injective : Function.Injective (tokOf : Dev nD × Fin 9 → GSem nD τ sig × ℕ × Unit) :=
  fun _ _ h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- The duty tokens of device `c`'s own nine cells, as minted. -/
def toks (c : Dev nD) : sProp 𝕄 := bigSep Finset.univ fun k : Fin 9 => dutyTok ER (kcell (c, k)) 0 ()

/-- What the launch element deals device `c`. -/
def G (c : Dev nD) : sProp 𝕄 :=
  iprop((bigSep Finset.univ fun k : Fin 9 => roundState ER (ringRd m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## From counters at zero to invariants, device by device -/

omit [FloatOps F] in
/-- The kernel's own semaphores are the eight send and receive ones; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
omit [FloatOps F] in
/-- the barrier semaphore is the one semaphore of a core that no scope allocates. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨⟨H1, H2, H3, H4, H5, H6, H7, H8⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## What all devices share, and what changes hands -/

/-- Every cell's invariant at its name, and that round 0 of every cell is reached. -/
def records (K : Dev nD × Fin 9 → ℕ) : sProp 𝕄 :=
  iprop((bigSep Finset.univ fun ck : Dev nD × Fin 9 => cellInv ER (ringRd m) (K ck) (kcell ck))
    ∗ bigSep Finset.univ fun ck : Dev nD × Fin 9 => reached ER (kcell ck) 0)

instance records_persistent (K : Dev nD × Fin 9 → ℕ) : BI.Persistent (records m K) := by unfold records; infer_instance

theorem inv_of_all (K : Dev nD × Fin 9 → ℕ) (ck : Dev nD × Fin 9) :
    (bigSep Finset.univ fun ck : Dev nD × Fin 9 => (cellInv ER (ringRd m) (K ck) (kcell ck) : sProp 𝕄)) ⊢ cellInv ER (ringRd m) (K ck) (kcell ck) :=
  bigSep_elim (Finset.mem_univ ck)
omit [FloatOps F] in
theorem reached_of_all (ck : Dev nD × Fin 9) :
    (bigSep Finset.univ fun ck : Dev nD × Fin 9 => (reached ER (kcell ck) 0 : sProp 𝕄)) ⊢ reached ER (kcell ck) 0 :=
  bigSep_elim (Finset.mem_univ ck)

theorem inv_at (K : Dev nD × Fin 9 → ℕ) (ck : Dev nD × Fin 9) :
    records m K ⊢ cellInv ER (ringRd m) (K ck) (kcell ck) := by
  unfold records; iintro ⟨#HI, -⟩
  iapply (inv_of_all m K ck); iexact HI
theorem reached_at (K : Dev nD × Fin 9 → ℕ) (ck : Dev nD × Fin 9) :
    records m K ⊢ reached ER (kcell ck) 0 := by
  unfold records; iintro ⟨-, #HR⟩
  iapply (reached_of_all (F := F) ck); iexact HR

theorem inv_bar (K : Dev nD × Fin 9 → ℕ) (c : Dev nD) : records m K ⊢ cellInv ER (ringRd m) (K (c, 0)) (barCell c) := inv_at m K (c, 0)
theorem inv_send (K : Dev nD × Fin 9 → ℕ) (c : Dev nD) (k : Fin 4) : records m K ⊢ cellInv ER (ringRd m) (K (c, sIdx k)) (sendCell c k) := by
  have h := inv_at m K (c, sIdx k); rw [kcell_send] at h; exact h
theorem inv_recv (K : Dev nD × Fin 9 → ℕ) (c : Dev nD) (k : Fin 4) : records m K ⊢ cellInv ER (ringRd m) (K (c, rIdx k)) (recvCell c k) := by
  have h := inv_at m K (c, rIdx k); rw [kcell_recv] at h; exact h
theorem reached_bar (K : Dev nD × Fin 9 → ℕ) (c : Dev nD) : records m K ⊢ reached ER (barCell c) 0 := reached_at m K (c, 0)
theorem reached_send (K : Dev nD × Fin 9 → ℕ) (c : Dev nD) (k : Fin 4) : records m K ⊢ reached ER (sendCell c k) 0 := by
  have h := reached_at m K (c, sIdx k); rw [kcell_send] at h; exact h
theorem reached_recv (K : Dev nD × Fin 9 → ℕ) (c : Dev nD) (k : Fin 4) : records m K ⊢ reached ER (recvCell c k) 0 := by
  have h := reached_at m K (c, rIdx k); rw [kcell_recv] at h; exact h

/-- The tokens of the duties device `c` pays: its partner's barrier duty and receive duties, its own send duties. -/
def payToks (c : Dev nD) : sProp 𝕄 :=
  iprop(dutyTok ER (barCell (pr c)) 0 ()
    ∗ (bigSep Finset.univ fun k : Fin 4 => dutyTok ER (recvCell (pr c) k) 0 ())
    ∗ (bigSep Finset.univ fun k : Fin 4 => dutyTok ER (sendCell c k) 0 ()))
/-- What stays with device `c`: its positions, and those tokens. -/
def linear (c : Dev nD) : sProp 𝕄 :=
  iprop((atPos ER (barCell c) 0 ∅ 0 ∗ (bigSep Finset.univ fun k : Fin 4 => atPos ER (sendCell c k) 0 ∅ 0)
      ∗ (bigSep Finset.univ fun k : Fin 4 => atPos ER (recvCell c k) 0 ∅ 0)) ∗ payToks c)

theorem ghost_intro (K : Dev nD × Fin 9 → ℕ) (c : Dev nD) : iprop(records m K ∗ linear c) ⊢ G' m c := by
  unfold linear payToks G' ghost invs
  iintro ⟨#HR, ⟨HaB, HaS, HaV⟩, HtB, HtV, HtS⟩
  iexists K
  isplitr
  · isplitr; · iapply (inv_bar m K c); iexact HR
    isplitr; · iapply (bigSep_intro_persistent (R := records m K) fun k _ => inv_send m K c k); iexact HR
    isplitr; · iapply (bigSep_intro_persistent (R := records m K) fun k _ => inv_recv m K c k); iexact HR
    isplitr; · iapply (inv_bar m K (pr c)); iexact HR
    iapply (bigSep_intro_persistent (R := records m K) fun k _ => inv_recv m K (pr c) k); iexact HR
  isplitl [HaB]; · iexact HaB
  isplitl [HaS]; · iexact HaS
  isplitl [HaV]; · iexact HaV
  isplitr; · iapply (reached_bar m K (pr c)); iexact HR
  isplitr; · iapply (bigSep_intro_persistent (R := records m K) fun k _ => reached_recv m K (pr c) k); iexact HR
  isplitr; · iapply (bigSep_intro_persistent (R := records m K) fun k _ => reached_send m K c k); iexact HR
  isplitl [HtB]; · iexact HtB
  isplitl [HtV]; · iexact HtV
  iexact HtS

omit [FloatOps F] in
/-- A device's nine tokens: its barrier's, its send cells', its receive cells'. -/
theorem toks_eq (c : Dev nD) : (toks c : sProp 𝕄)
    = iprop(dutyTok ER (barCell c) 0 () ∗ (bigSep Finset.univ fun k : Fin 4 => dutyTok ER (sendCell c k) 0 ())
        ∗ (bigSep Finset.univ fun k : Fin 4 => dutyTok ER (recvCell c k) 0 ())) := by
  unfold toks; rw [bigSep_nine]; simp only [kcell_send, kcell_recv]

omit [FloatOps F] in
/-- The tokens dealt around: the barrier token and the receive tokens cross to the partner, the send tokens stay. -/
theorem toks_around : (bigSep Finset.univ fun c : Dev nD => (toks c : sProp 𝕄)) ⊢ bigSep Finset.univ fun c : Dev nD => payToks c := by
  unfold payToks
  rw [bigSep_congr (s := Finset.univ) fun (c : Dev nD) _ => toks_eq (F := F) c, bigSep_sep', bigSep_sep', bigSep_sep', bigSep_sep',
    bigSep_univ_equiv swapE (fun c : Dev nD => (dutyTok ER (barCell c) 0 () : sProp 𝕄)),
    bigSep_univ_equiv swapE (fun c : Dev nD => (bigSep Finset.univ fun k : Fin 4 => dutyTok ER (recvCell c k) 0 () : sProp 𝕄))]
  iintro ⟨H1, H2, H3⟩
  isplitl [H1]; · iexact H1
  isplitl [H3]; · iexact H3
  iexact H2

omit [FloatOps F] in
/-- A device's nine positions likewise. -/
theorem pos_eq (c : Dev nD) : (bigSep Finset.univ fun k : Fin 9 => (atPos ER (kcell (c, k)) 0 ∅ 0 : sProp 𝕄))
    = iprop(atPos ER (barCell c) 0 ∅ 0 ∗ (bigSep Finset.univ fun k : Fin 4 => atPos ER (sendCell c k) 0 ∅ 0)
        ∗ (bigSep Finset.univ fun k : Fin 4 => atPos ER (recvCell c k) 0 ∅ 0)) := by
  rw [bigSep_nine]; simp only [kcell_send, kcell_recv]

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (ringRd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear; rw [pos_eq])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem O₀_eq : (O₀ : Dev nD → CellTallies nD τ sig Unit)
    = fun d => Rk d 3 + Rk d 2 + Rk d 1 + Rk d 0 + tallyAt (barCell (pr d)) () 1 := rfl

omit [FloatOps F] in
/-- Every device owes its partner alone: a device is dealt the credit of one barrier unit and of four chunks. -/
theorem creds (c : Dev nD) :
    (Pipeline.launchCred O₀ c : sProp 𝕄)
      ⊢ iprop(cred (tallyAt (barCell c) () 1) ∗ bigSep Finset.univ fun k : Fin 4 => cred (tallyAt (recvCell c k) () N)) := by
  rw [O₀_eq, Pipeline.launchCred_add, Pipeline.launchCred_add, Pipeline.launchCred_add, Pipeline.launchCred_add, bigSep_fin4]
  iintro ⟨⟨⟨⟨H3, H2⟩, H1⟩, H0⟩, HB⟩
  isplitl [HB]; · iapply (Pipeline.launchCred_tallyAt (.reg barS) pr pr pr_pr pr_pr () 1 c); iexact HB
  isplitl [H0]; · iapply (Pipeline.launchCred_tallyAt (.dma (recvS 0)) pr pr pr_pr pr_pr () N c); iexact H0
  isplitl [H1]; · iapply (Pipeline.launchCred_tallyAt (.dma (recvS 1)) pr pr pr_pr pr_pr () N c); iexact H1
  isplitl [H2]; · iapply (Pipeline.launchCred_tallyAt (.dma (recvS 2)) pr pr pr_pr pr_pr () N c); iexact H2
  iapply (Pipeline.launchCred_tallyAt (.dma (recvS 3)) pr pr pr_pr pr_pr () N c); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  rw [bigSep_fin4, bigSep_fin4]
  iintro ⟨⟨S0, S1, S2, S3⟩, R0, R1, R2, R3⟩
  isplitr; · iempintro
  isplitl
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  · iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- Each window's array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- Every weakly fair execution of the eight devices terminates without fault, each window's array at `finalA`. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0)
    (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m c (0 : Fin 2) = m ((c : Thread nD τ).loc main_arg0) :=
  (dats (F := F) m 0 c).arrAt_in (0 : Fin 2) rfl _

/-- The result array after the run is the gathered array. -/
theorem finalA_out (c : Dev nD) : finalA m c (1 : Fin 2) = outAt m c := by
  have h := (dats (F := F) m 0 c).arrAt_succ (1 : Fin 2) t₀
  rw [flush0_1 t₀, if_pos rfl] at h
  refine (show finalA m c (1 : Fin 2) = (dats m 0 c).arrAt (1 : Fin 2) (t₀.val + 1) from rfl).trans (h.trans ?_)
  exact Memref.write_access_unit_zero_univ (Elt F) main_v1 (funext fun a => Nat.zero_mul _) _ _ _

/-- The run with its strongest post: every device's result is the gathered array, its argument unchanged. -/
theorem run_post : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun r h c => ⟨(h c (1 : Fin 2)).trans (finalA_out m c), (h c (0 : Fin 2)).trans (finalA_x m c)⟩) (run_main m ρ)

/-- info: 'Cert.Kernel.AG.glob' depends on axioms: [propext, Classical.choice, Quot.sound] -/
#guard_msgs in #print axioms glob

/-- info: 'Cert.Kernel.AG.finalA_out' depends on axioms: [propext, Classical.choice, Quot.sound] -/
#guard_msgs in #print axioms finalA_out

/-- info: 'Cert.Kernel.AG.run_post' depends on axioms: [propext, Classical.choice, Quot.sound] -/
#guard_msgs in #print axioms run_post

end Cert.Kernel.AG

end
-- ==== Proof.AgValue.lean ====
/-
  The gathered array against the one-device reference.

  Each device holds one half of a 2048 x 512 array: rows 1024 p to 1024 p + 1024, where p is the device's last
  mesh coordinate, which is the parity of its number. The gathered array takes row r of half h from the device of
  the pair whose parity is h, at row r of that device's block, and that is row 1024 h + r of the whole array. So
  the gathered array, converted entry by entry, is the whole array converted entry by entry: the reference's result.
-/
import proofs.«900669_g7700000000000670_dist_ag_v7x_xyz2x2x2_z_m1024_n512_bf16_1_alg».proof.Defs
import proofs.«900669_g7700000000000670_dist_ag_v7x_xyz2x2x2_z_m1024_n512_bf16_1_alg».proof.Proof.AgChunks
import proofs.«900669_g7700000000000670_dist_ag_v7x_xyz2x2x2_z_m1024_n512_bf16_1_alg».proof.Proof.Gen.ReferenceIdeal.Run
import proofs.«900669_g7700000000000670_dist_ag_v7x_xyz2x2x2_z_m1024_n512_bf16_1_alg».proof.Proof.Gen.ReferenceIdeal.Read
import Idealize.ShloMosaic.Lib.Layout

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## A device's block, read through its window -/

/-- The argument's window has one block, at block index zero and of the buffer's own sizes: reading it reads the
    buffer. -/
theorem xstg_eq {F : FTy → Type} [FloatOps F] (m : (ℓ : Loc nD τ sig) → Buf (Elt F) ℓ) (c : Dev nD) :
    xstg m c = m ((c : Thread nD τ).loc main_arg0) := by
  unfold xstg
  have hz : (fun a => (win0_0.index (0 : Fin 1)) a * main_arg0.ty.shape.size a) = fun _ => 0 :=
    funext fun a => Nat.zero_mul _
  exact Memref.read_access_unit_zero (Elt F) main_arg0 hz (fun a => by fin_cases a <;> decide) _

/-! ## Which block a device holds -/

/-- The rows are cut along the last mesh axis alone, so a device's block of rows is numbered by its parity; -/
theorem blk_rows : ∀ c : Dev nD, ((Layout.meshBlock [2, 2, 2] ![[2], []] c) 0).val = c.val % 2 := by decide
/-- the columns are not cut. -/
theorem blk_cols : ∀ c : Dev nD, ((Layout.meshBlock [2, 2, 2] ![[2], []] c) 1).val = 0 := by decide

/-- Of a pair, the device chosen for half `h` has parity `h`. -/
theorem halfDev_half : ∀ (c : Dev nD) (h : Fin 2), (halfDev c h.val).val % 2 = h.val := by decide

/-! ## The index equation -/

/-- Row `r mod 1024` of block `r / 1024` is row `r` of the whole array, the column kept. -/
theorem idx_rowIn (d : Dev nD) (i : S2048x512.Idx) (hd : d.val % 2 = (i 0).val / 1024)
    (h : Layout.TilesN ⟨2, ![1024, 512]⟩ ⟨2, ![2048, 512]⟩ _) :
    h.idx (Layout.meshBlock [2, 2, 2] ![[2], []] d) (rowIn i) = i := by
  funext b
  apply Fin.ext
  rw [Layout.TilesN.idx_val]
  match b with
  | ⟨0, _⟩ =>
    show ((Layout.meshBlock [2, 2, 2] ![[2], []] d) 0).val * 1024 + (i 0).val % 1024 = (i 0).val
    rw [blk_rows, hd]; omega
  | ⟨1, _⟩ =>
    show ((Layout.meshBlock [2, 2, 2] ![[2], []] d) 1).val * 512 + (i 1).val = (i 1).val
    rw [blk_cols]; omega

/-- When every device's argument buffer is its block of a whole array `X`, the array every device gathers is `X`
    converted entry by entry. Both sides convert one entry of `X` by one and the same scalar conversion; only the
    entry's position has to be matched. -/
theorem outAt_whole (m : (ℓ : Loc nD τ sig) → Buf (Elt Ideal) ℓ)
    (X : (⟨S2048x512, .f32⟩ : BufTy).Contents (Elt Ideal))
    (hagree : ∀ c : Dev nD, m ((c.tc : Thread nD τ).loc main_arg0)
      = Layout.blockN ⟨2, ![1024, 512]⟩ ⟨2, ![2048, 512]⟩ (Layout.meshBlock [2, 2, 2] ![[2], []] c) X)
    (c : Dev nD) :
    outAt (F := Ideal) m c
      = (truncf .bf16 (X : FVec Ideal S2048x512 .f32) bitsLt_bf16_f32 : FVec Ideal S2048x512 .bf16) := by
  funext i
  have hi : (i 0).val / 1024 < 2 := by have h : (i 0).val < 2048 := (i 0).isLt; omega
  have hpar : (halfDev c ((i 0).val / 1024)).val % 2 = (i 0).val / 1024 := halfDev_half c ⟨(i 0).val / 1024, hi⟩
  show FloatOps.truncf .bf16 bitsLt_bf16_f32 (xstg m (halfDev c ((i 0).val / 1024)) (rowIn i))
    = FloatOps.truncf .bf16 bitsLt_bf16_f32 (X i)
  rw [xstg_eq, hagree, Layout.blockN_apply, idx_rowIn _ i hpar]

/-- info: 'Cert.KernelIdeal.AG.outAt_whole' depends on axioms: [propext, Classical.choice, Quot.sound] -/
#guard_msgs in #print axioms outAt_whole

end Cert.KernelIdeal.AG

end
-- ==== Proof.lean ====
/- Eight devices in four pairs gather, pair by pair, the two halves of a 2048 x 512 array into every device's result
   buffer, each half converted to the narrower float format by the device that holds it. Every execution of the
   mesh terminates with the arguments as launched (the three frames), and, over the extended reals, with every
   result buffer holding the whole array converted entry by entry, which is what the one-device conversion of the
   whole array leaves: a device's block is the half its last mesh coordinate names, so the gathered rows are the
   array's own rows in order. -/
import proofs.«900669_g7700000000000670_dist_ag_v7x_xyz2x2x2_z_m1024_n512_bf16_1_alg».proof.Defs
import proofs.«900669_g7700000000000670_dist_ag_v7x_xyz2x2x2_z_m1024_n512_bf16_1_alg».proof.Proof.Gen.Kernel
import proofs.«900669_g7700000000000670_dist_ag_v7x_xyz2x2x2_z_m1024_n512_bf16_1_alg».proof.Proof.Gen.Kernel.Skeleton
import proofs.«900669_g7700000000000670_dist_ag_v7x_xyz2x2x2_z_m1024_n512_bf16_1_alg».proof.Proof.Gen.Kernel.Launch
import proofs.«900669_g7700000000000670_dist_ag_v7x_xyz2x2x2_z_m1024_n512_bf16_1_alg».proof.Proof.Gen.Kernel.Points
import proofs.«900669_g7700000000000670_dist_ag_v7x_xyz2x2x2_z_m1024_n512_bf16_1_alg».proof.Proof.Gen.Kernel.Frame
import proofs.«900669_g7700000000000670_dist_ag_v7x_xyz2x2x2_z_m1024_n512_bf16_1_alg».proof.Proof.Gen.KernelIdeal
import proofs.«900669_g7700000000000670_dist_ag_v7x_xyz2x2x2_z_m1024_n512_bf16_1_alg».proof.Proof.Gen.KernelIdeal.Skeleton
import proofs.«900669_g7700000000000670_dist_ag_v7x_xyz2x2x2_z_m1024_n512_bf16_1_alg».proof.Proof.Gen.KernelIdeal.Launch
import proofs.«900669_g7700000000000670_dist_ag_v7x_xyz2x2x2_z_m1024_n512_bf16_1_alg».proof.Proof.Gen.KernelIdeal.Points
import proofs.«900669_g7700000000000670_dist_ag_v7x_xyz2x2x2_z_m1024_n512_bf16_1_alg».proof.Proof.Gen.KernelIdeal.Frame
import proofs.«900669_g7700000000000670_dist_ag_v7x_xyz2x2x2_z_m1024_n512_bf16_1_alg».proof.Proof.Gen.ReferenceIdeal
import proofs.«900669_g7700000000000670_dist_ag_v7x_xyz2x2x2_z_m1024_n512_bf16_1_alg».proof.Proof.Gen.ReferenceIdeal.Run
import proofs.«900669_g7700000000000670_dist_ag_v7x_xyz2x2x2_z_m1024_n512_bf16_1_alg».proof.Proof.Gen.Pre_finite_inputs_Kernel
import proofs.«900669_g7700000000000670_dist_ag_v7x_xyz2x2x2_z_m1024_n512_bf16_1_alg».proof.Proof.Gen.Pre_finite_inputs_ReferenceIdeal
import proofs.«900669_g7700000000000670_dist_ag_v7x_xyz2x2x2_z_m1024_n512_bf16_1_alg».proof.Proof.AgLaunch
import proofs.«900669_g7700000000000670_dist_ag_v7x_xyz2x2x2_z_m1024_n512_bf16_1_alg».proof.Proof.AwLaunch
import proofs.«900669_g7700000000000670_dist_ag_v7x_xyz2x2x2_z_m1024_n512_bf16_1_alg».proof.Proof.AgValue
import Idealize.ShloMosaic.Adequacy
import Idealize.ShloMosaic.Init

noncomputable section

namespace Cert.Proof

open Idealize.ShloMosaic Idealize.ShloMosaic.TcCoe Idealize.SL.Sem

/-! ## The three frames: each run's post, its statement about the arguments kept -/

/-- The word-level program: every execution of the eight devices ends with each argument buffer as launched. -/
theorem frame_k : Cert.frame_Kernel := fun m ρ _ =>
  (θ_run Cert.Kernel.defs _ _).mono (fun _ h c => (h c).2) (Cert.Kernel.AG.run_post (F := Bits) m ρ)

/-- The same of its reading over the extended reals. -/
theorem frame_ki : Cert.frame_KernelIdeal := fun m ρ _ =>
  (θ_run Cert.KernelIdeal.defs _ _).mono (fun _ h c => (h c).2) (Cert.KernelIdeal.AG.run_post (F := Ideal) m ρ)

/-- The one-device conversion leaves its argument as launched. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the ideal reading, so there is nothing to preserve. -/
theorem preserves : Cert.preserves_Kernel_KernelIdeal := trivial

/-! ## The value -/

/-- From blocks of one whole array, every device's result buffer ends at that array converted entry by entry,
    and so does the one-device conversion's result. -/
theorem algebraic : Cert.algebraic_KernelIdeal_ReferenceIdeal := by
  intro m ρ m' ρ' _ hagree
  refine ⟨(truncf .bf16
      (m' (((0 : Dev Cert.ReferenceIdeal.nD).tc : Thread Cert.ReferenceIdeal.nD Cert.ReferenceIdeal.τ).loc
        Cert.ReferenceIdeal.main_arg0) : FVec Ideal Cert.ReferenceIdeal.S2048x512 .f32)
      Cert.ReferenceIdeal.Facts₀.bitsLt_bf16_f32 : FVec Ideal Cert.ReferenceIdeal.S2048x512 .bf16), ?_, ?_⟩
  · exact (θ_run Cert.KernelIdeal.defs _ _).mono
      (fun _ h c => ⟨(h c).1.trans (Cert.KernelIdeal.AG.outAt_whole m _ hagree c), (h c).2⟩)
      (Cert.KernelIdeal.AG.run_post (F := Ideal) m ρ)
  · exact (θ_run Cert.ReferenceIdeal.defs _ _).mono (fun _ h => h 0)
      (Cert.ReferenceIdeal.Value.run (F := Ideal) m' ρ')

/-! ## The claim -/

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_k, frame_ki, frame_ri, preserves, algebraic⟩

end Cert.Proof

end
